-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128 .f32) (main_arg8 : FVec F S128x10 .f32) (main_arg9 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S100000x2 : Shape := ⟨2, ![100000, 2]⟩
abbrev S1x128 : Shape := ⟨2, ![1, 128]⟩
abbrev S10000x128 : Shape := ⟨2, ![10000, 128]⟩
abbrev S10000x2 : Shape := ⟨2, ![10000, 2]⟩
abbrev S10000x1 : Shape := ⟨2, ![10000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩
abbrev S64x128 : Shape := ⟨2, ![64, 128]⟩
abbrev S10000x64 : Shape := ⟨2, ![10000, 64]⟩

abbrev nBuf : Space → Nat
  | .hbm => 97
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S100000x1, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x1, .f32⟩
  | .hbm, ⟨70, _⟩ => ⟨S100000x2, .f32⟩
  | .hbm, ⟨71, _⟩ => ⟨S1x128, .f32⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S64, .f32⟩
  | .hbm, ⟨90, _⟩ => ⟨S100000x1, .i32⟩
  | .hbm, ⟨91, _⟩ => ⟨S64, .f32⟩
  | .hbm, ⟨92, _⟩ => ⟨S64x1, .f32⟩
  | .hbm, ⟨93, _⟩ => ⟨S100000x1, .f32⟩
  | .hbm, ⟨94, _⟩ => ⟨S1x128, .f32⟩
  | .hbm, ⟨95, _⟩ => ⟨S1x10, .f32⟩
  | .hbm, ⟨96, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S10000x2, .f32⟩
  | .local _ .vmem, ⟨3, _⟩ => ⟨S10000x2, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x1, .f32⟩
  | .local _ .vmem, ⟨11, _⟩ => ⟨S10000x1, .f32⟩
  | .local _ .vmem, ⟨12, _⟩ => ⟨S10000x1, .i32⟩
  | .local _ .vmem, ⟨13, _⟩ => ⟨S10000x1, .i32⟩
  | .local _ .vmem, ⟨14, _⟩ => ⟨S64x1, .f32⟩
  | .local _ .vmem, ⟨15, _⟩ => ⟨S128x128, .f32⟩
  | .local _ .vmem, ⟨16, _⟩ => ⟨S1x128, .f32⟩
  | .local _ .vmem, ⟨17, _⟩ => ⟨S128x10, .f32⟩
  | .local _ .vmem, ⟨18, _⟩ => ⟨S1x10, .f32⟩
  | .local _ .vmem, ⟨19, _⟩ => ⟨S64x10, .f32⟩
  | .local _ .vmem, ⟨20, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_8 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_9 : Ref sig .tc := ⟨.hbm, 52, rfl⟩
abbrev main_v27 : Ref sig .tc := ⟨.hbm, 53, rfl⟩
abbrev main_v28 : Ref sig .tc := ⟨.hbm, 54, rfl⟩
abbrev main_c_10 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_c_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_cst_16 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_16 : BitVec 32 := 0#32
  let v32 : BitVec 1 := Scalar.cmpi .ne v31 c0_i32_16
  v32

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S128_S1x128 : S128.ShapeCasts S1x128
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64 : S_.BroadcastsInDim S64 (![] : Fin 0 → Fin S64.rank)
  shapeCasts_S64_S64x1 : S64.ShapeCasts S64x1
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S64_S100000x1_S100000_n_0_0_1_wf : ScatterDims.WF S64 S100000x1 S100000 [] [0] [0] 1
  dot_S10000x64_S10000x128_S64x128_0_0_1_1_n_n_wf : DotDims.WF S10000x64 S10000x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S100000x2.size a
  hwx0_1 : ∀ i : grid0.Coords, EltTy.bits .f32 = 32 ∨ (Rect.block (s := S100000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .i32 = 32 ∨ (Rect.block (s := S100000x1) S10000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x10.size a ≤ S128x10.size a
  hwx1_6 : ∀ i : grid1.Coords, EltTy.bits .f32 = 32 ∨ (Rect.block (s := S128x10) S128x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x10.size a ≤ S64x10.size a
  hwx1_8 : ∀ i : grid1.Coords, EltTy.bits .f32 = 32 ∨ (Rect.block (s := S64x10) S64x10.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v39) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v54) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S64x10.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S_, .f32⟩
  | 48 => ⟨S100000, .f32⟩
  | 49 => ⟨S100000, .i1⟩
  | 50 => ⟨S_, .f32⟩
  | 51 => ⟨S100000, .f32⟩
  | 52 => ⟨S100000, .f32⟩
  | 53 => ⟨S100000, .f32⟩
  | 54 => ⟨S_, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .i1⟩
  | 81 => ⟨S_, .f32⟩
  | 82 => ⟨S100000, .f32⟩
  | 83 => ⟨S100000, .f32⟩
  | 84 => ⟨S100000, .f32⟩
  | 85 => ⟨S_, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S_, .f32⟩
  | 106 => ⟨S100000, .f32⟩
  | 107 => ⟨S100000, .i1⟩
  | 108 => ⟨S_, .f32⟩
  | 109 => ⟨S100000, .f32⟩
  | 110 => ⟨S100000, .f32⟩
  | 111 => ⟨S100000, .f32⟩
  | 112 => ⟨S_, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S_, .f32⟩
  | 127 => ⟨S64x128, .f32⟩
  | _ => ⟨S100000x128, .f32⟩

abbrev hbmTy0_1 (i : Nat) : BufTy := match i % 128 with
  | 0 => ⟨S100000x1, .i32⟩
  | 1 => ⟨S64x128, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | 14 => ⟨S64x10, .f32⟩
  | 15 => ⟨S1x10, .f32⟩
  | 16 => ⟨S64x10, .f32⟩
  | 17 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_call1_v0 : Ref sig .tc := ⟨.hbm, 55, rfl⟩
abbrev main_call1_v1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_cst_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_15 : Ref sig .tc := ⟨.hbm, 85, rfl⟩
abbrev main_call3_v0 : Ref sig .tc := ⟨.hbm, 86, rfl⟩
abbrev main_call3_v1 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_16 : Ref sig .tc := ⟨.hbm, 92, rfl⟩
abbrev main_v56 : Ref sig .tc := ⟨.hbm, 93, rfl⟩
abbrev main_v57 : Ref sig .tc := ⟨.hbm, 94, rfl⟩
abbrev main_c_17 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_v67 : Ref sig .tc := ⟨.hbm, 107, rfl⟩
abbrev main_cst_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_21 : Ref sig .tc := ⟨.hbm, 112, rfl⟩
abbrev main_call4_v0 : Ref sig .tc := ⟨.hbm, 113, rfl⟩
abbrev main_call4_v1 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_call5_cst : Ref sig .tc := ⟨.hbm, 123, rfl⟩
abbrev main_call5_v0 : Ref sig .tc := ⟨.hbm, 124, rfl⟩
abbrev main_v79 : Ref sig .tc := ⟨.hbm, 125, rfl⟩
abbrev main_cst_22 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_23 : Ref sig .tc := ⟨.hbm, 130, rfl⟩
abbrev main_v83 : Ref sig .tc := ⟨.hbm, 131, rfl⟩
abbrev main_cst_24 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_25 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KIReg0.lean ====
/-
  REGION 0 (the first layer's dense step, one block of 10000 nodes per grid point): what the kernel body leaves in its
  output block, the proof data of the region at the buffer contents `V` it is entered from, and the body obligation.
-/
import proofs.«428050_j45861660787100_2_alg».proof.Proof.Gen.KernelIdeal.Launch
import proofs.«428050_j45861660787100_2_alg».proof.Proof.Gen.KernelIdeal.Skeleton
import proofs.«428050_j45861660787100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block (window 4), from the four input blocks: the aggregated rows `x0`
    (window 0), the two columns of degree factors `x1` (window 1), the weights `x2` (window 2), the bias row `x3`
    (window 3). -/
def out0_4 (x0 : Vec F S10000x128 .f32) (x1 : Vec F S10000x2 .f32) (x2 : Vec F S128x128 .f32) (x3 : Vec F S1x128 .f32) :
    Vec F S10000x128 .f32 :=
  k0_pay1 x1 x0 x2 x3

/-! ## The input blocks are in place at every point -/

/-- An input window's current staging buffer holds its block at every point, whether the block was moved in there or
    has stayed since an earlier point (the block index has then not changed): for any proof data whose array is `V`'s
    and whose body leaves the block where it was. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_0 : Rect S10000x128 := Rect.unit (s := S10000x128) ![0, 0] S10000x128.size inb_S10000x128_S10000x128_0_0
abbrev r0_1 : Rect S10000x2 := Rect.unit (s := S10000x2) ![0, 0] S10000x2.size inb_S10000x2_S10000x2_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

theorem hz : (![0, 0] : Fin 2 → Nat) = fun _ => 0 := funext fun a => by fin_cases a <;> rfl

/-- The one store takes the whole output buffer, so it covers it. -/
theorem cover0_4 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-- The buffer after the one whole-buffer store of the payload of the whole-buffer loads is `out0_4` of the inputs. -/
theorem canon0_4 (x0 : Vec F S10000x128 .f32) (x1 : Vec F S10000x2 .f32) (x2 : Vec F S128x128 .f32) (x3 : Vec F S1x128 .f32) :
    View.canon [⟨r0_0, k0_pay1 (View.ld x1 r0_1) (View.ld x0 r0_0) (View.ld x2 r0_2) (View.ld x3 r0_3)⟩] = out0_4 x0 x1 x2 x3 := by
  rw [View.canon_unit_zero hz]
  simp only [View.ld_unit_zero (S := S10000x128) hz, View.ld_unit_zero (S := S10000x2) hz,
    View.ld_unit_zero (S := S128x128) hz, View.ld_unit_zero (S := S1x128) hz]
  rfl

/-! ## The body's triple -/

set_option maxHeartbeats 1000000 in
/-- The kernel body on whole staging memrefs, the inputs' at read contents `xW` and the output's at anything, runs to
    the continuation holding the inputs' as they were and the output's at `out0_4` of the inputs'. -/
theorem sound_kernel0 (c : Dev nD) (E : Set ℕ) (i : grid0.Coords)
    (arg1 : Memref sig .tc .vmem S10000x128 .f32) (harg1 : arg1.IsWhole) (arg2 : Memref sig .tc .vmem S10000x2 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S10000x128 .f32) (harg5 : arg5.IsWhole)
    (x0 : Vec F S10000x128 .f32) (x1 : Vec F S10000x2 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_layer1_kernel i arg1 harg1 arg2 harg2 arg3 harg3 arg4 harg4 arg5 harg5) K := by
  simp only [cc0_layer1_kernel_eq_skeleton]; unfold cc0_layer1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover0_4 _)).trans (canon0_4 _ _ _ _)

/-! ## The region's proof data -/

/-- The proof data of region 0 on core `c`: the arrays as the region finds them; after the body each input's buffer
    at its block, the output's at `out0_4` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KIReg1.lean ====
/-
  REGION 1 (the second layer's dense step, the per-graph sums and the classifier): the kernel keeps a [64,128] table
  of per-graph sums in a scratch buffer across its ten grid points: zeroed at the first point, each point adds its
  block's contribution, and the last point divides by the counts, applies the classifier and stores the [64,10] result.
  Here: the body in its three control cases (the first point, the points between, the last point), what the scratch holds
  after each point, what the last point stores, the invariant that carries the scratch between points, the proof data of
  the region at the buffer contents `V` it is entered from, and the body obligation.
-/
import proofs.«428050_j45861660787100_2_alg».proof.Proof.Gen.KernelIdeal.Launch
import proofs.«428050_j45861660787100_2_alg».proof.Proof.Gen.KernelIdeal.Skeleton
import proofs.«428050_j45861660787100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

The body loads and stores each of its buffers whole: through the unit-stride rectangle at zero offsets of the
buffer's own extents. A load through it reads the contents; a store through it, last, leaves its payload. -/

section Whole

variable {sig' : RefSig} {κ' : Kind} {sp' : Space} {S : Shape} {e : EltTy} {Val : EltTy → Type}

/-- The zero offsets of a rank-2 shape, as the constant function. -/
theorem hz2 : (![0, 0] : Fin 2 → ℕ) = fun _ => 0 := funext fun a => by fin_cases a <;> rfl

/-- A load through the whole-shape rectangle at zero offsets reads what the view reads. -/
theorem readAt_unit_zero (v : View sig' κ' sp' S e) (f : v.ty.Contents Val) {off : Fin S.rank → ℕ} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-- A store through it, last, leaves its payload, whatever the earlier stores and the prior contents were. -/
theorem read_writes_cons_unit_zero (v : View sig' κ' sp' S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Whole

/-! ## The body's branch conditions, decided over the grid -/
/-- The condition of the body's first conditional (the first point: the table is zeroed), from the grid coordinates. -/
abbrev cond1_0 (i : grid1.Coords) : Prop := (Scalar.cmpi .ne (Scalar.extui (Scalar.cmpi .eq (BitVec.ofNat 32 (i 0).val) 0#32)) 0#32) = 1#1
/-- The condition of the body's second conditional (the last point: the result is stored). -/
abbrev cond1_1 (i : grid1.Coords) : Prop := k1_cond2 i = 1#1

/-- The first conditional is taken at the first point only. -/
theorem hcond1_0 : ∀ t : Fin cfg1.N, cond1_0 (grid1.coords t) ↔ t.val % 10 = 0 :=
  (by decide +kernel : ∀ t : Fin grid1.N, cond1_0 (grid1.coords t) ↔ t.val % 10 = 0)
/-- The second conditional is taken at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Away from the last point the output window is idle: the body stores nothing into it, -/
theorem idleAt1_8 : ∀ t : Fin cfg1.N, ¬cond1_1 (grid1.coords t) → cfg1.idle 8 (grid1.coords t) = true := by decide +kernel
/-- and its block is not written back there. -/
theorem noFlush1_8 : ∀ t : Fin cfg1.N, ¬cond1_1 (grid1.coords t) → (cfg1.win 8).flush t = false := by decide +kernel
/-- At the last point it is live. -/
theorem liveAt1_8 : ∀ t : Fin cfg1.N, cond1_1 (grid1.coords t) → cfg1.idle 8 (grid1.coords t) = false := by decide +kernel

/-! ## The staging memrefs the body is called with -/

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S10000x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x10 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x10 .f32 := win1_8.stage (cfg1.slots t 8)
abbrev hs1_8 (t : Fin cfg1.N) : (ms1_8 t).IsWhole := hstage1_8 ((cfg1.slots t 8).cast nbuf1_8)

/-! ## The body in its three control cases

On whole buffers — the eight inputs at their contents, the output block and the scratch table as each case needs them —
the body runs to the continuation holding the inputs as they were and the table at the step's result over what it found
(over the zero table at the first point, which stores it first); the output block is handed back untouched except at the
last point, which stores the classifier's result over the table it has just left. -/

set_option maxHeartbeats 1000000 in
/-- THE FIRST POINT: the table, found at anything, is zeroed and the point's contribution added; the output block is not
    touched. -/
theorem sound1_A (c : Dev nD) (i : grid1.Coords) (arg1 : Memref sig .tc .vmem S10000x128 .f32) (harg1 : arg1.IsWhole) (arg2 : Memref sig .tc .vmem S10000x1 .f32) (harg2 : arg2.IsWhole) (arg3 : Memref sig .tc .vmem S10000x1 .i32) (harg3 : arg3.IsWhole) (arg4 : Memref sig .tc .vmem S64x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S64x10 .f32) (harg9 : arg9.IsWhole) (arg10 : Memref sig .tc .vmem S64x128 .f32) (harg10 : arg10.IsWhole) (hc0 : cond1_0 i) (hc1 : ¬cond1_1 i)
    (x0 : Vec F S10000x128 .f32) (x1 : Vec F S10000x1 .f32) (x2 : Vec F S10000x1 .i32) (x3 : Vec F S64x1 .f32) (x4 : Vec F S128x128 .f32) (x5 : Vec F S1x128 .f32) (x6 : Vec F S128x10 .f32) (x7 : Vec F S1x10 .f32)
    (xi8 : Vec F S64x10 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare (k1_pay2 x0 x1 x4 x5 x2 (k1_pay1 (F := F)))) -∗ K ⟨⟩))
          ⊢ wp frame (wpE (defs₀ (F := F)) Variants.none c none) E (cc1_layer2_pool_head_kernel i arg1 harg1 arg2 harg2 arg3 harg3 arg4 harg4 arg5 harg5 arg6 harg6 arg7 harg7 arg8 harg8 arg9 harg9 arg10 harg10) K := by
  simp only [cc1_layer2_pool_head_kernel_eq_skeleton]; unfold cc1_layer2_pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact HS0
  ipureintro
  rw [read_writes_cons_unit_zero _ _ hz2]
  simp only [readAt_unit_zero (S := S10000x128) _ _ hz2, readAt_unit_zero (S := S10000x1) _ _ hz2, readAt_unit_zero (S := S128x128) _ _ hz2, readAt_unit_zero (S := S1x128) _ _ hz2, readAt_unit_zero (S := S64x128) _ _ hz2, readAt_unit_zero (S := S64x1) _ _ hz2, readAt_unit_zero (S := S128x10) _ _ hz2, readAt_unit_zero (S := S1x10) _ _ hz2, hf0, hf1, hf2, hf3, hf4, hf5, hf6, hf7]
  unfold sound1_A.sl.v25 sound1_A.sl.HS0_1
  rw [View.readCov_cons_toLoadRect]

set_option maxHeartbeats 1000000 in
/-- A POINT BETWEEN: the point's contribution is added to the table the point before left; the output block is not
    touched. -/
theorem sound1_B (c : Dev nD) (i : grid1.Coords) (arg1 : Memref sig .tc .vmem S10000x128 .f32) (harg1 : arg1.IsWhole) (arg2 : Memref sig .tc .vmem S10000x1 .f32) (harg2 : arg2.IsWhole) (arg3 : Memref sig .tc .vmem S10000x1 .i32) (harg3 : arg3.IsWhole) (arg4 : Memref sig .tc .vmem S64x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S64x10 .f32) (harg9 : arg9.IsWhole) (arg10 : Memref sig .tc .vmem S64x128 .f32) (harg10 : arg10.IsWhole) (hc0 : ¬cond1_0 i) (hc1 : ¬cond1_1 i)
    (x0 : Vec F S10000x128 .f32) (x1 : Vec F S10000x1 .f32) (x2 : Vec F S10000x1 .i32) (x3 : Vec F S64x1 .f32) (x4 : Vec F S128x128 .f32) (x5 : Vec F S1x128 .f32) (x6 : Vec F S128x10 .f32) (x7 : Vec F S1x10 .f32)
    (xi8 : Vec F S64x10 .f32) (xs : Vec F S64x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare (k1_pay2 x0 x1 x4 x5 x2 xs)) -∗ K ⟨⟩))
          ⊢ wp frame (wpE (defs₀ (F := F)) Variants.none c none) E (cc1_layer2_pool_head_kernel i arg1 harg1 arg2 harg2 arg3 harg3 arg4 harg4 arg5 harg5 arg6 harg6 arg7 harg7 arg8 harg8 arg9 harg9 arg10 harg10) K := by
  simp only [cc1_layer2_pool_head_kernel_eq_skeleton]; unfold cc1_layer2_pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _; isplitr
  swap; · iexact HS0
  ipureintro
  rw [read_writes_cons_unit_zero _ _ hz2]
  simp only [readAt_unit_zero (S := S10000x128) _ _ hz2, readAt_unit_zero (S := S10000x1) _ _ hz2, readAt_unit_zero (S := S128x128) _ _ hz2, readAt_unit_zero (S := S1x128) _ _ hz2, readAt_unit_zero (S := S64x128) _ _ hz2, readAt_unit_zero (S := S64x1) _ _ hz2, readAt_unit_zero (S := S128x10) _ _ hz2, readAt_unit_zero (S := S1x10) _ _ hz2, hf0, hf1, hf2, hf3, hf4, hf5, hf6, hf7, hfs0]

set_option maxHeartbeats 1000000 in
/-- THE LAST POINT: the point's contribution is added to the table, and the classifier's result over the table just
    stored goes to the output block, found at anything. -/
theorem sound1_C (c : Dev nD) (i : grid1.Coords) (arg1 : Memref sig .tc .vmem S10000x128 .f32) (harg1 : arg1.IsWhole) (arg2 : Memref sig .tc .vmem S10000x1 .f32) (harg2 : arg2.IsWhole) (arg3 : Memref sig .tc .vmem S10000x1 .i32) (harg3 : arg3.IsWhole) (arg4 : Memref sig .tc .vmem S64x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S64x10 .f32) (harg9 : arg9.IsWhole) (arg10 : Memref sig .tc .vmem S64x128 .f32) (harg10 : arg10.IsWhole) (hc0 : ¬cond1_0 i) (hc1 : cond1_1 i)
    (x0 : Vec F S10000x128 .f32) (x1 : Vec F S10000x1 .f32) (x2 : Vec F S10000x1 .i32) (x3 : Vec F S64x1 .f32) (x4 : Vec F S128x128 .f32) (x5 : Vec F S1x128 .f32) (x6 : Vec F S128x10 .f32) (x7 : Vec F S1x10 .f32)
    (xs : Vec F S64x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k1_pay3 (k1_pay2 x0 x1 x4 x5 x2 xs) x3 x6 x7) ∗ owns (c : Thread nD τ) arg10 fullShare (k1_pay2 x0 x1 x4 x5 x2 xs)) -∗ K ⟨⟩))
          ⊢ wp frame (wpE (defs₀ (F := F)) Variants.none c none) E (cc1_layer2_pool_head_kernel i arg1 harg1 arg2 harg2 arg3 harg3 arg4 harg4 arg5 harg5 arg6 harg6 arg7 harg7 arg8 harg8 arg9 harg9 arg10 harg10) K := by
  simp only [cc1_layer2_pool_head_kernel_eq_skeleton]; unfold cc1_layer2_pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr
    swap; · iexact H8
    ipureintro
    rw [read_writes_cons_unit_zero _ _ hz2]
    simp only [readAt_unit_zero (S := S10000x128) _ _ hz2, readAt_unit_zero (S := S10000x1) _ _ hz2, readAt_unit_zero (S := S128x128) _ _ hz2, readAt_unit_zero (S := S1x128) _ _ hz2, readAt_unit_zero (S := S64x128) _ _ hz2, readAt_unit_zero (S := S64x1) _ _ hz2, readAt_unit_zero (S := S128x10) _ _ hz2, readAt_unit_zero (S := S1x10) _ _ hz2, hf0, hf1, hf2, hf3, hf4, hf5, hf6, hf7, hfs0]
    unfold sound1_C.sl.v33 sound1_C.sl.HS0_1
    rw [View.readCov_cons_toLoadRect]
    simp only [readAt_unit_zero (S := S10000x128) _ _ hz2, readAt_unit_zero (S := S10000x1) _ _ hz2, readAt_unit_zero (S := S128x128) _ _ hz2, readAt_unit_zero (S := S1x128) _ _ hz2, readAt_unit_zero (S := S64x128) _ _ hz2, readAt_unit_zero (S := S64x1) _ _ hz2, readAt_unit_zero (S := S128x10) _ _ hz2, readAt_unit_zero (S := S1x10) _ _ hz2, hf0, hf1, hf2, hf3, hf4, hf5, hf6, hf7, hfs0]
  iexists _; isplitr
  swap; · iexact HS0
  ipureintro
  unfold sound1_C.sl.HS0_1
  rw [read_writes_cons_unit_zero _ _ hz2]
  simp only [readAt_unit_zero (S := S10000x128) _ _ hz2, readAt_unit_zero (S := S10000x1) _ _ hz2, readAt_unit_zero (S := S128x128) _ _ hz2, readAt_unit_zero (S := S1x128) _ _ hz2, readAt_unit_zero (S := S64x128) _ _ hz2, readAt_unit_zero (S := S64x1) _ _ hz2, readAt_unit_zero (S := S128x10) _ _ hz2, readAt_unit_zero (S := S1x10) _ _ hz2, hf0, hf1, hf2, hf3, hf4, hf5, hf6, hf7, hfs0]

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one point adds to the table of per-graph sums `s` it finds: from the block of aggregated rows `x0`
    (window 0), the block of in-degree factors `x1` (window 1), the block of graph numbers `x2` (window 2), the
    weights `x4` (window 4) and the bias row `x5` (window 5). -/
def step1 (x0 : Vec F S10000x128 .f32) (x1 : Vec F S10000x1 .f32) (x2 : Vec F S10000x1 .i32) (x4 : Vec F S128x128 .f32)
    (x5 : Vec F S1x128 .f32) (s : Vec F S64x128 .f32) : Vec F S64x128 .f32 :=
  k1_pay2 x0 x1 x4 x5 x2 s

/-- THE ACCUMULATION: the scratch table after the body at point `n`: at the first point the step over the zero table
    the point has just stored, afterwards the step over what the point before left. -/
def acc1 (c : Dev nD) : (n : ℕ) → n < cfg1.N → Vec F S64x128 .f32
  | 0, h => step1 (iblk1 V c 0 ⟨0, h⟩) (iblk1 V c 1 ⟨0, h⟩) (iblk1 V c 2 ⟨0, h⟩) (iblk1 V c 4 ⟨0, h⟩) (iblk1 V c 5 ⟨0, h⟩)
      (k1_pay1 (F := F))
  | n + 1, h => step1 (iblk1 V c 0 ⟨n + 1, h⟩) (iblk1 V c 1 ⟨n + 1, h⟩) (iblk1 V c 2 ⟨n + 1, h⟩) (iblk1 V c 4 ⟨n + 1, h⟩)
      (iblk1 V c 5 ⟨n + 1, h⟩) (acc1 c n (Nat.lt_of_succ_lt h))

/-- `acc1` at the first point. -/
theorem acc1_zero (c : Dev nD) (t : Fin cfg1.N) (hz : t.val = 0) :
    acc1 V c t.val t.isLt = step1 (iblk1 V c 0 t) (iblk1 V c 1 t) (iblk1 V c 2 t) (iblk1 V c 4 t) (iblk1 V c 5 t) (k1_pay1 (F := F)) := by
  obtain ⟨n, hn⟩ := t
  cases n with
  | zero => rfl
  | succ n => exact absurd hz (Nat.succ_ne_zero n)

/-- `acc1` at a later point: the step over what the point before left. -/
theorem acc1_pos (c : Dev nD) (t : Fin cfg1.N) (hz : t.val ≠ 0) :
    acc1 V c t.val t.isLt = step1 (iblk1 V c 0 t) (iblk1 V c 1 t) (iblk1 V c 2 t) (iblk1 V c 4 t) (iblk1 V c 5 t)
      (acc1 V c (t.val - 1) (Nat.lt_of_le_of_lt (Nat.sub_le _ _) t.isLt)) := by
  obtain ⟨n, hn⟩ := t
  cases n with
  | zero => exact absurd rfl hz
  | succ n => rfl

/-- What the output block (window 8) holds after the body at point `t`: the classifier applied to the table the
    point leaves, with the counts `x3` (window 3), the classifier's weights `x6` (window 6) and bias `x7` (window 7).
    Only the last point stores it (and only there is the block written back); at the other points the window is idle and
    this value is consulted by nothing. -/
def out1_8 (c : Dev nD) (t : Fin cfg1.N) : Vec F S64x10 .f32 :=
  k1_pay3 (acc1 V c t.val t.isLt) (iblk1 V c 3 t) (iblk1 V c 6 t) (iblk1 V c 7 t)

/-- The scratch operand, a whole scoped buffer of the kernel's own. -/
abbrev scM1 : Memref sig .tc .vmem S64x128 .f32 := Memref.whole cc1_scratch0

/-- The core's scoped buffers that are no staging buffer of this region: the other region's eight staging buffers, each
    whole at some contents, and then the scratch table as `P` describes it. -/
def rest1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ P)

/-- The class's invariant with the scratch table as a memref owned at some contents: what the body is handed at the
    first point. -/
theorem PhiA1_eq (c : Dev nD) :
    (Pipeline.ΦA spec1 c : sProp 𝕄)
      = iprop(rest1 (F := F) c iprop(∃ d, owns (c : Thread nD τ) scM1 fullShare d) ∗ (∃ r, prngReg c r)) := by
  unfold Pipeline.ΦA rest1; rw [scopedRest1_eq]; simp only [scM1, owns_whole]; try rfl

/-- The region invariant before position `n`: before the first point the class's (every scoped buffer at anything);
    afterwards the same with the scratch table at what the point before left. -/
def PhiS1 (c : Dev nD) : (n : ℕ) → n ≤ cfg1.N → sProp 𝕄
  | 0, _ => Pipeline.ΦA spec1 c
  | n + 1, hn => iprop(rest1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the table at that point's contents. -/
theorem PhiS1_succ (c : Dev nD) (n : ℕ) (hn : n < cfg1.N) :
    PhiS1 V c (n + 1) hn = iprop(rest1 c (owns (c : Thread nD τ) scM1 fullShare (acc1 V c n hn)) ∗ (∃ r, prngReg c r)) := rfl

/-- Before a point that is not the first: the table at what the point before left. -/
theorem PhiS1_pos (c : Dev nD) (n : ℕ) (h : n ≤ cfg1.N) (hz : n ≠ 0) :
    PhiS1 V c n h = iprop(rest1 c (owns (c : Thread nD τ) scM1 fullShare (acc1 V c (n - 1) (by omega))) ∗ (∃ r, prngReg c r)) := by
  cases n with
  | zero => exact absurd rfl hz
  | succ n => rfl

/-- The proof data of region 1 on core `c`: the arrays as the region finds them; after the body each input's buffer
    at its block, the output's at `out1_8`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 V c t := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows: their blocks, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' memrefs hold their blocks; the point is the first, the last or one between, and the
    matching case of the body runs: the invariant hands it the scratch table at what the point before left (at anything at
    the first point, where the body zeroes it) and takes it back at this point's contents; the output window is handed back
    as found except at the last point, where it is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [PhiS1_castSucc V c t]
  by_cases h1 : t.val % 10 = 9
  · have hc0 : ¬cond1_0 (grid1.coords t) := fun h => by have := (hcond1_0 t).mp h; omega
    have hc1 : cond1_1 (grid1.coords t) := (hcond1_1 t).mpr h1
    have hz : t.val ≠ 0 := by omega
    rw [show (dat1 V c).leavesExact 8 t = owns (c : Thread nD τ) (ms1_8 t) fullShare ((dat1 V c).after 8 t) from by
      unfold Dat.leavesExact; rw [liveAt1_8 t hc1], after1_8]
    unfold out1_8
    rw [acc1_pos V c t hz]; unfold step1
    rw [PhiS1_pos V c _ _ hz]; unfold rest1
    iintro ⟨⟨⟨R1, R2, R3, R4, R5, R6, R7, R8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound1_C c (grid1.coords t) _ (hs1_0 t) _ (hs1_1 t) _ (hs1_2 t) _ (hs1_3 t) _ (hs1_4 t) _ (hs1_5 t) _ (hs1_6 t) _ (hs1_7 t) _ (hs1_8 t) _ (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [R1 R2 R3 R4 R5 R6 R7 R8 HS Hg]
    · isplitl [R1 R2 R3 R4 R5 R6 R7 R8 HS]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc1 : ¬cond1_1 (grid1.coords t) := fun h => h1 ((hcond1_1 t).mp h)
    rw [Dat.leavesExact_idle (dat1 V c) 8 t (idleAt1_8 t hc1) (noFlush1_8 t hc1)]
    by_cases h0 : t.val % 10 = 0
    · have hc0 : cond1_0 (grid1.coords t) := (hcond1_0 t).mpr h0
      have hz : t.val = 0 := by omega
      rw [acc1_zero V c t hz]; unfold step1
      rw [PhiS1_zero V c _ _ hz, PhiA1_eq]; unfold rest1
      iintro ⟨⟨⟨R1, R2, R3, R4, R5, R6, R7, R8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound1_A c (grid1.coords t) _ (hs1_0 t) _ (hs1_1 t) _ (hs1_2 t) _ (hs1_3 t) _ (hs1_4 t) _ (hs1_5 t) _ (hs1_6 t) _ (hs1_7 t) _ (hs1_8 t) _ (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · have hc0 : ¬cond1_0 (grid1.coords t) := fun h => h0 ((hcond1_0 t).mp h)
      have hz : t.val ≠ 0 := fun h => h0 (by rw [h])
      rw [acc1_pos V c t hz]; unfold step1
      rw [PhiS1_pos V c _ _ hz]; unfold rest1
      iintro ⟨⟨⟨R1, R2, R3, R4, R5, R6, R7, R8, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound1_B c (grid1.coords t) _ (hs1_0 t) _ (hs1_1 t) _ (hs1_2 t) _ (hs1_3 t) _ (hs1_4 t) _ (hs1_5 t) _ (hs1_6 t) _ (hs1_7 t) _ (hs1_8 t) _ (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the table's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold rest1
  iintro ⟨⟨R1, R2, R3, R4, R5, R6, R7, R8, HS⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

/-- After the last point the invariant gives the class's back. -/
theorem hout1 (c : Dev nD) : (dat1 V c).Φ (Fin.last cfg1.N) ⊢ Pipeline.ΦA spec1 c :=
  Phi_out1 V c _ (by rw [Fin.val_last]; have : cfg1.N = 10 := N_1; omega)

end

end Cert.KernelIdeal.Hand

end
-- ==== Proof.KIRunCond.lean ====
/-
  The launch of the idealized kernel program over its eight items, with the RESULT buffer read at the end beside the
  arguments: given a segment record per kernel region, entered from and left at the valuations between the items, every
  weakly fair execution of @main terminates, the result buffer holds what the last region's record leaves in it and
  every argument array is as launched.
-/
import proofs.«428050_j45861660787100_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- THE RUN, given the regions' records: for any user algebra, level assignment, launch dues and ghost resources, any
    rest states `E` the launch makes on every core at once and that end owing nothing, any contents the regions leave
    and any proof data, every weakly fair execution of @main from memory `m` with zero counters terminates; every final
    memory holds the result buffer at what region 1 leaves in it and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v63) = outs 8 main_v63 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, .rfl, .rfl, hpre0 c, hpost0 c, hpre1 c, (hpost1 c).trans (sep_mono .rfl (hE2 c))⟩)
    (hinit := ?_) (QY := fun c s => s.mem ((c.tc : Thread nD τ).loc main_v63) = outs 8 main_v63 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_v63) (Finset.mem_filter.mpr ⟨StableHlo.devRef_mem_tcRefs main_v63, by decide⟩)).trans (Function.update_self _ _ _),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c)⟩
    · iexact HSI

end Cert.KernelIdeal.Hand

end
-- ==== Proof.KIRun.lean ====
/-
  THE RUN of the idealized kernel program: @main is five stretches of host operations, region 0, one more stretch,
  region 1. Between two items every unscoped buffer of a core is held whole at a known valuation: the launch
  contents, then each stretch's operations applied, then region 0's result array at what its write-backs leave
  (`Y0`), then the last stretch, then region 1's result array (`Y1`). Each region is entered from that state: its
  arrays are split out of the unscoped buffers, the generator register goes into the region's invariant and comes
  back, nothing is owed. The run ends with the program's result buffer at `Y1` and every argument as launched.
-/
import proofs.«428050_j45861660787100_2_alg».proof.Proof.Gen.KernelIdeal.Launch
import proofs.«428050_j45861660787100_2_alg».proof.Proof.Gen.KernelIdeal.Skeleton
import proofs.«428050_j45861660787100_2_alg».proof.Proof.Gen.KernelIdeal.Points
import proofs.«428050_j45861660787100_2_alg».proof.Proof.Gen.KernelIdeal.Regions
import proofs.«428050_j45861660787100_2_alg».proof.Proof.KIReg0
import proofs.«428050_j45861660787100_2_alg».proof.Proof.KIReg1
import proofs.«428050_j45861660787100_2_alg».proof.Proof.KIRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions are entered from and what they leave -/

/-- Core `c`'s buffers when region 0 is entered, read at the TensorCore's references. -/
abbrev Ve0 (c : Dev nD) (b : Ref sig .tc) : Buf (Elt F) ((c : Thread nD τ).loc b) := Gen.V5 m c b

/-- Region 0's result array after the region: its ten blocks written back. -/
def Y0 (c : Dev nD) : Buf (Elt F) ((c : Thread nD τ).loc main_v44) := (dat0 (Ve0 m) c).arrAt 4 cfg0.N

/-- Core `c`'s buffers when region 1 is entered: the last host stretch over region 0's exit contents. -/
abbrev Wv1 (c : Dev nD) : Valuation τ sig (Elt F) := StableHlo.after hostOps1 (Function.update (Gen.V5 m c) main_v44 (Y0 m c))
abbrev Ve1 (c : Dev nD) (b : Ref sig .tc) : Buf (Elt F) ((c : Thread nD τ).loc b) := Wv1 m c b

/-- Region 1's result array after the region: its one block written back at the last point. -/
def Y1 (c : Dev nD) : Buf (Elt F) ((c : Thread nD τ).loc main_v63) := (dat1 (Ve1 m) c).arrAt 8 cfg1.N

/-- What the regions leave in the buffers they may change, as the generated valuations read it: region 0's result
    at `main_v44`, region 1's at `main_v63`. -/
def outs : Gen.Outs (F := F) := fun _ r c =>
  Function.update (Function.update (fun b : Ref sig .tc => m ((c : Thread nD τ).loc b)) main_v44 (Y0 m c)) main_v63 (Y1 m c) r

theorem outs_v44 (J : ℕ) (c : Dev nD) : outs m J main_v44 c = Y0 m c := by
  unfold outs
  rw [Function.update_of_ne (by decide), Function.update_self]

theorem outs_v63 (J : ℕ) (c : Dev nD) : outs m J main_v63 c = Y1 m c := by
  unfold outs
  rw [Function.update_self]

theorem V7_eq (c : Dev nD) : Gen.V7 m (outs m) c = Wv1 m c := by
  show StableHlo.after hostOps1 (Function.update (Gen.V5 m c) main_v44 (outs m 6 main_v44 c)) = _
  rw [outs_v44]

/-! ## The proof data family and what rides beside the buffers -/

/-- Each region's proof data at its entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the core's generator register at some state and nothing owed. -/
abbrev R (c : Dev nD) : sProp 𝕄 := iprop((∃ r, prngReg c r) ∗ ∃ W, owes (c : Thread nD τ) (0 : CellTallies nD τ sig Unit) W)

/-- The exit contents of the two regions, read at the TensorCore's references. -/
abbrev Vx0 (c : Dev nD) (b : Ref sig .tc) : Buf (Elt F) ((c : Thread nD τ).loc b) := Gen.V6 m (outs m) c b
abbrev Vx1 (c : Dev nD) (b : Ref sig .tc) : Buf (Elt F) ((c : Thread nD τ).loc b) := Gen.V8 m (outs m) c b

/-- After region 0 each of its arrays holds what the pipeline leaves: an input its entry contents (no item in between
    writes it), the result array its ten blocks. -/
theorem hF0 (c : Dev nD) (w : Fin cfg0.W) : (dat0 (Ve0 m) c).arrAt w cfg0.N = Vx0 m c (Pipeline.arrRef spec0 w) := by
  match w with
  | ⟨0, _⟩ => exact (((dat0 (Ve0 m) c).arrAt_in 0 rfl _).trans (A_eq0 (Ve0 m) c 0)).trans (Gen.V6_of m (outs m) c _ (by decide)).symm
  | ⟨1, _⟩ => exact (((dat0 (Ve0 m) c).arrAt_in 1 rfl _).trans (A_eq0 (Ve0 m) c 1)).trans (Gen.V6_of m (outs m) c _ (by decide)).symm
  | ⟨2, _⟩ => exact (((dat0 (Ve0 m) c).arrAt_in 2 rfl _).trans (A_eq0 (Ve0 m) c 2)).trans (Gen.V6_of m (outs m) c _ (by decide)).symm
  | ⟨3, _⟩ => exact (((dat0 (Ve0 m) c).arrAt_in 3 rfl _).trans (A_eq0 (Ve0 m) c 3)).trans (Gen.V6_of m (outs m) c _ (by decide)).symm
  | ⟨4, _⟩ =>
    show (dat0 (Ve0 m) c).arrAt 4 cfg0.N = Function.update (Gen.V5 m c) main_v44 (outs m 6 main_v44 c) main_v44
    rw [Function.update_self, outs_v44]; rfl

/-- Every other buffer is as region 0 found it. -/
theorem hrest0 (c : Dev nD) : ∀ b, b ∉ Finset.univ.image (Pipeline.arrRef spec0) → Vx0 m c b = Ve0 m c b := fun b hb =>
  Gen.V6_of m (outs m) c b (fun h => hb (Finset.mem_image.mpr ⟨4, Finset.mem_univ _, (List.mem_singleton.mp h).symm⟩))

set_option maxHeartbeats 4000000 in
theorem hF1 (c : Dev nD) (w : Fin cfg1.W) : (dat1 (Ve1 m) c).arrAt w cfg1.N = Vx1 m c (Pipeline.arrRef spec1 w) := by
  have hV : ∀ b : Ref sig .tc, b ∉ ([main_v63] : List (Ref sig .tc)) → Vx1 m c b = Ve1 m c b := fun b hb =>
    (Gen.V8_of m (outs m) c b hb).trans (congrFun (V7_eq m c) _)
  match w with
  | ⟨0, _⟩ => exact (((dat1 (Ve1 m) c).arrAt_in 0 rfl _).trans (A_eq1 (Ve1 m) c 0)).trans (hV _ (by decide)).symm
  | ⟨1, _⟩ => exact (((dat1 (Ve1 m) c).arrAt_in 1 rfl _).trans (A_eq1 (Ve1 m) c 1)).trans (hV _ (by decide)).symm
  | ⟨2, _⟩ => exact (((dat1 (Ve1 m) c).arrAt_in 2 rfl _).trans (A_eq1 (Ve1 m) c 2)).trans (hV _ (by decide)).symm
  | ⟨3, _⟩ => exact (((dat1 (Ve1 m) c).arrAt_in 3 rfl _).trans (A_eq1 (Ve1 m) c 3)).trans (hV _ (by decide)).symm
  | ⟨4, _⟩ => exact (((dat1 (Ve1 m) c).arrAt_in 4 rfl _).trans (A_eq1 (Ve1 m) c 4)).trans (hV _ (by decide)).symm
  | ⟨5, _⟩ => exact (((dat1 (Ve1 m) c).arrAt_in 5 rfl _).trans (A_eq1 (Ve1 m) c 5)).trans (hV _ (by decide)).symm
  | ⟨6, _⟩ => exact (((dat1 (Ve1 m) c).arrAt_in 6 rfl _).trans (A_eq1 (Ve1 m) c 6)).trans (hV _ (by decide)).symm
  | ⟨7, _⟩ => exact (((dat1 (Ve1 m) c).arrAt_in 7 rfl _).trans (A_eq1 (Ve1 m) c 7)).trans (hV _ (by decide)).symm
  | ⟨8, _⟩ =>
    show (dat1 (Ve1 m) c).arrAt 8 cfg1.N = Function.update (Gen.V7 m (outs m) c) main_v63 (outs m 8 main_v63 c) main_v63
    rw [Function.update_self, outs_v63]; rfl

theorem hrest1 (c : Dev nD) : ∀ b, b ∉ Finset.univ.image (Pipeline.arrRef spec1) → Vx1 m c b = Ve1 m c b := fun b hb =>
  (Gen.V8_of m (outs m) c b (fun h => hb (Finset.mem_image.mpr ⟨8, Finset.mem_univ _, (List.mem_singleton.mp h).symm⟩))).trans
    (congrFun (V7_eq m c) _)

/-! ## The regions as segments -/

set_option backward.isDefEq.respectTransparency.types false in
/-- REGION 0 over the thread state: entered from every unscoped buffer at the contents the five stretches leave, left
    with its result array at `Y0` and every other buffer unchanged. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents the last stretch leaves, left with its result array at
    `Y1`. The generator register and the scoped buffers go into the region's invariant through `hin1` and come
    back through `hout1`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Wv1 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (Ve1 m) c)
    unfold Pipeline.ΦA
    iintro ⟨Hp, -, Hr⟩
    isplitl [Hr]; · iexact Hr
    iexact Hp
  hout c := by
    rw [Pipeline.ownSems0_none]
    refine .trans (show (pdats m 1 c).Φ (Fin.last _) ⊢ Pipeline.ΦA spec1 c from hout1 (Ve1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The rest state makes itself on every core at once from what the launch deals: the generator register as dealt,
    nothing owed. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE RUN WITH THE RESULT NAMED: from any memory with zero counters every weakly fair execution of @main terminates;
    the result buffer ends at `Y1` and every argument array as launched. -/
theorem run_value (ρ : Dev nD → PrngReg) :
    θ_run defs (onTc (τ := τ) (main (F := F))) ⟨m, fun _ => 0, ρ⟩ (fun r => ∀ c : Dev nD,
      r.2.mem ((c.tc : Thread nD τ).loc main_v63) = Y1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have h := run_cond (F := F) m (Ix := Unit) (U := UR sig nD τ) (Lvl := ℕ) emb₁ () 𝒱₀ L lv (fun _ _ => rfl) ρ (outs m) (pdats m)
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (hE0 ρ)
    (fun c => by iintro ⟨-, H⟩; iexact H)
    (reg0 m) (fun c => .rfl) (fun c => .rfl)
    (reg1 m) (fun c => by rw [V7_eq]; exact .rfl) (fun c => .rfl)
  refine (θ_run defs _ _).mono (fun r hr c => ?_) h
  rw [← outs_v63 m 8 c]
  exact hr c

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_value m ρ)

end Cert.KernelIdeal.Hand

end
-- ==== Proof.RefSide.lean ====
import proofs.«428050_j45861660787100_2_alg».proof.Proof.RefRead

/-! The reference's run and its stages read at an index are brought in here (the copies of the generated run and of the
    generated reading module that build); what is proved about them follows in the modules that import this one. -/
-- ==== Proof.Spec.lean ====
/-
  The two dense pieces of the network as index-by-index functions on the extended reals, stated once and used for
  both programs.

  A graph layer's dense step takes, at node n, the aggregated row x[n, :], scales it by the node's factor s[n]
  (the inverse square root of its in-degree), multiplies by the weight matrix, adds the bias and clamps at zero:
      dense x s W b n j = max (sum over k of (x[n,k] * s[n]) * W[k,j] + b[j]) 0.
  The first layer's result is stored already scaled by the node's out-degree factor, the second column of a two-column
  table of factors (column 0: the in-degree factor): h1s. The second layer's rows are pooled per graph (the rows of the
  nodes whose graph number, read as a signed integer, is g are added up), divided by the larger of the graph's node count
  and one, and sent through the classifier: head.
  Float literals stay as the words the programs print (the zero word and the word of 1.0).
-/
import Idealize.ShloMosaic.PureOps.Ideal
import Idealize.ShloMosaic.Lib.ValueIdx
import Mathlib.Data.EReal.Basic
import Mathlib.Algebra.BigOperators.Group.Finset.Basic

noncomputable section

open scoped BigOperators

namespace Cert.Spec

open Idealize.ShloMosaic Idealize.ShloMosaic.ValueIdx

abbrev SNxD : Shape := ⟨2, ![100000, 128]⟩
abbrev SNx2 : Shape := ⟨2, ![100000, 2]⟩
abbrev SNx1 : Shape := ⟨2, ![100000, 1]⟩
abbrev SDxD : Shape := ⟨2, ![128, 128]⟩
abbrev S1xD : Shape := ⟨2, ![1, 128]⟩
abbrev SGx1 : Shape := ⟨2, ![64, 1]⟩
abbrev SDxC : Shape := ⟨2, ![128, 10]⟩
abbrev S1xC : Shape := ⟨2, ![1, 10]⟩
abbrev SGxC : Shape := ⟨2, ![64, 10]⟩

/-- The zero and the one the programs print, as extended reals. -/
abbrev zeroW : EReal := Ideal.ofBits .f32 0x00000000#32
abbrev oneW : EReal := Ideal.ofBits .f32 0x3F800000#32

/-- The dense step of a layer at node `n`, feature `j`: the row scaled by the node's factor, times the weights,
    plus the bias, clamped at zero. -/
def dense (x : SNxD.Idx → EReal) (s : Fin 100000 → EReal) (W : SDxD.Idx → EReal) (b : Fin 128 → EReal)
    (n : Fin 100000) (j : Fin 128) : EReal :=
  max ((∑ k : Fin 128, (x (ix2 n k) * s n) * W (ix2 k j)) + b j) zeroW

/-- The first layer's stored rows: the dense step with the in-degree factors (column 0 of `dn`), each row then
    scaled by its out-degree factor (column 1 of `dn`). -/
def h1s (x : SNxD.Idx → EReal) (dn : SNx2.Idx → EReal) (W : SDxD.Idx → EReal) (b : S1xD.Idx → EReal) :
    SNxD.Idx → EReal :=
  fun i => dense x (fun n => dn (ix2 n 0)) W (fun j => b (ix2 0 j)) (i 0) (i 1) * dn (ix2 (i 0) 1)

/-- The second layer's rows added up per graph: over the nodes whose graph number, read signed, is `g`. -/
def pooled (x : SNxD.Idx → EReal) (s : SNx1.Idx → EReal) (gid : SNx1.Idx → BitVec 32) (W : SDxD.Idx → EReal)
    (b : S1xD.Idx → EReal) (g : Fin 64) (j : Fin 128) : EReal :=
  ∑ n ∈ (Finset.univ : Finset (Fin 100000)).filter (fun n => (gid (ix2 n ⟨0, Nat.one_pos⟩)).toInt = (g.val : Int)),
    dense x (fun n => s (ix2 n 0)) W (fun j => b (ix2 0 j)) n j

/-- The network's result: the pooled rows divided by the larger of the graph's count and one, times the classifier's
    weights, plus its bias. -/
def head (x : SNxD.Idx → EReal) (s : SNx1.Idx → EReal) (gid : SNx1.Idx → BitVec 32) (cnt : SGx1.Idx → EReal)
    (W : SDxD.Idx → EReal) (b : S1xD.Idx → EReal) (Wc : SDxC.Idx → EReal) (bc : S1xC.Idx → EReal) :
    SGxC.Idx → EReal :=
  fun i => (∑ j : Fin 128, Ideal.div (pooled x s gid W b (i 0) j) (max (cnt (ix2 (i 0) 0)) oneW) * Wc (ix2 j (i 1)))
    + bc (ix2 0 (i 1))

end Cert.Spec

end
-- ==== Proof.KIVal0.lean ====
/-
  REGION 0's result array as ONE function of the arrays the region is entered with, index by index (the ideal values).

  The body's payload at row `p`, feature `q` of a block is the dense step of that row (`pay_apply`); the block of
  point `t` is rows 10000 t … 10000 t + 9999 of the node arrays and the whole of the weights and of the bias row
  (`iblk0_W_apply`); so point `t` writes back block `t` of `Cert.Spec.h1s` of the entry arrays (`flushed0_4_eq`), the
  ten blocks cover the 100000 rows (`covered0_4`), and the array after the region is `h1s` of the entry arrays (`arr0_4`).
-/
import proofs.«428050_j45861660787100_2_alg».proof.Proof.KIReg0
import proofs.«428050_j45861660787100_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's payload at an index of the block -/

/-- The block matmul's operand indices at output index `i` and contraction index `q`, axis by axis. -/
theorem lhs_mm0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_mm0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_mm0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_mm0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block matmul into the zero accumulator at row `p`, column `q`: the sum over the 128 shared coordinates. -/
theorem mm0_apply (l : FVec Ideal S10000x128 .f32) (r : FVec Ideal S128x128 .f32) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  show FloatOps.matmul _ _ _ _ _ _ = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-- A one-column block broadcast along the 128 features reads the column's entry of the row. -/
theorem bcast_col0_apply (v : Vec Ideal S10000x1 .f32) (p : Fin 10000) (q : Fin 128) :
    broadcastTo S10000x128 v broadcasts_S10000x1_S10000x128 (ix2 p q) = v (ix2 p 0) :=
  broadcastTo_apply v broadcasts_S10000x1_S10000x128 (ix2 p q) (ix2 p 0) (fun a => match a with
    | ⟨0, _⟩ => by show p.val = if (10000 : Nat) = 1 then 0 else p.val; rw [if_neg (by decide)]
    | ⟨1, _⟩ => by show 0 = if (1 : Nat) = 1 then 0 else q.val; rw [if_pos rfl])

/-- The bias row broadcast down the block's rows reads the row's entry of the feature. -/
theorem bcast_row0_apply (v : Vec Ideal S1x128 .f32) (p : Fin 10000) (q : Fin 128) :
    broadcastTo S10000x128 v broadcasts_S1x128_S10000x128 (ix2 p q) = v (ix2 0 q) :=
  broadcastTo_apply v broadcasts_S1x128_S10000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The two columns of the block of degree factors, each as a one-column block. -/
theorem slice_col0_apply (v : Vec Ideal S10000x2 .f32) (p : Fin 10000) :
    extractStridedSlice S10000x1 ![0, 0] v slices_S10000x2_o0_0_S10000x1 (ix2 p 0) = v (ix2 p 0) :=
  extractStridedSlice_apply _ v slices_S10000x2_o0_0_S10000x1 (ix2 p 0) (ix2 p 0) (fun a => match a with
    | ⟨0, _⟩ => by show p.val = 0 + p.val; omega
    | ⟨1, _⟩ => by show 0 = 0 + 0; rfl)
theorem slice_col1_apply (v : Vec Ideal S10000x2 .f32) (p : Fin 10000) :
    extractStridedSlice S10000x1 ![0, 1] v slices_S10000x2_o0_1_S10000x1 (ix2 p 0) = v (ix2 p 1) :=
  extractStridedSlice_apply _ v slices_S10000x2_o0_1_S10000x1 (ix2 p 0) (ix2 p 1) (fun a => match a with
    | ⟨0, _⟩ => by show p.val = 0 + p.val; omega
    | ⟨1, _⟩ => by show 1 = 1 + 0; rfl)

/-- THE BODY'S PAYLOAD AT ROW `p`, FEATURE `q` OF THE BLOCK: the row scaled by its in-degree factor, times the
    weights, plus the bias, clamped at zero, scaled by the row's out-degree factor. -/
theorem pay_apply (x0 : Vec Ideal S10000x128 .f32) (x1 : Vec Ideal S10000x2 .f32) (x2 : Vec Ideal S128x128 .f32)
    (x3 : Vec Ideal S1x128 .f32) (p : Fin 10000) (q : Fin 128) :
    k0_pay1 x1 x0 x2 x3 (ix2 p q)
      = max ((∑ k : Fin 128, (x0 (ix2 p k) * x1 (ix2 p 0)) * x2 (ix2 k q)) + x3 (ix2 0 q)) Cert.Spec.zeroW * x1 (ix2 p 1) := by
  unfold k0_pay1
  simp only [shapeCast_self]
  rw [mulf_apply, maximumf_apply, addf_apply, mm0_apply, bcast_row0_apply, bcast_col0_apply, slice_col1_apply, broadcast_apply]
  congr 2
  · congr 1
    refine Finset.sum_congr rfl fun k _ => ?_
    rw [mulf_apply, bcast_col0_apply, slice_col0_apply]

/-- A block's payload is the block of `Cert.Spec.h1s`: if the four input blocks are rows `10000 n …` of the node
    arrays `A0`, `A1` and the whole of `A2`, `A3`, then at the array index `i` under the block index `y` the payload is
    `h1s A0 A1 A2 A3 i`. -/
theorem pay_eq_h1s (x0 : Vec Ideal S10000x128 .f32) (x1 : Vec Ideal S10000x2 .f32) (x2 : Vec Ideal S128x128 .f32)
    (x3 : Vec Ideal S1x128 .f32)
    (A0 : S100000x128.Idx → EReal) (A1 : S100000x2.Idx → EReal) (A2 : S128x128.Idx → EReal) (A3 : S1x128.Idx → EReal) (n : Nat)
    (h0 : ∀ (y : S10000x128.Idx) (i : S100000x128.Idx), (i 0).val = 10000 * n + (y 0).val → (i 1).val = (y 1).val → x0 y = A0 i)
    (h1 : ∀ (y : S10000x2.Idx) (i : S100000x2.Idx), (i 0).val = 10000 * n + (y 0).val → (i 1).val = (y 1).val → x1 y = A1 i)
    (h2 : ∀ (y i : S128x128.Idx), (i 0).val = (y 0).val → (i 1).val = (y 1).val → x2 y = A2 i)
    (h3 : ∀ (y i : S1x128.Idx), (i 0).val = (y 0).val → (i 1).val = (y 1).val → x3 y = A3 i)
    (y : S10000x128.Idx) (i : S100000x128.Idx) (hi0 : (i 0).val = 10000 * n + (y 0).val) (hi1 : (i 1).val = (y 1).val) :
    k0_pay1 x1 x0 x2 x3 y = Cert.Spec.h1s A0 A1 A2 A3 i := by
  obtain ⟨p, q, rfl⟩ : ∃ (p : Fin 10000) (q : Fin 128), y = ix2 p q := ⟨y 0, y 1, eq_ix2 y⟩
  have hs : ∑ k : Fin 128, (x0 (ix2 p k) * x1 (ix2 p 0)) * x2 (ix2 k q)
      = ∑ k : Fin 128, (A0 (ix2 (i 0) k) * A1 (ix2 (i 0) 0)) * A2 (ix2 k (i 1)) :=
    Finset.sum_congr rfl fun k _ => by
      rw [h0 (ix2 p k) (ix2 (i 0) k) hi0 rfl, h1 (ix2 p 0) (ix2 (i 0) 0) hi0 rfl, h2 (ix2 k q) (ix2 k (i 1)) rfl hi1]
  rw [pay_apply, hs, h1 (ix2 p 1) (ix2 (i 0) 1) hi0 rfl, h3 (ix2 0 q) (ix2 0 (i 1)) rfl hi1]
  rfl

/-! ## From blocks to the array -/

section
variable (V : (c : Dev nD) → (b : Ref sig .tc) → Buf (Elt Ideal) ((c : Thread nD τ).loc b))

/-- The windows' block indices at point `t`, decided over the ten points: the node arrays' blocks move with the point
    along the rows; the weights and the bias row stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Each input block at an index, as the entry array at the index under it. -/
theorem iblk0_0_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_v39 : S100000x128.Idx → EReal) i := by
  obtain ⟨e0, e1, -⟩ := idx_facts0 t
  unfold iblk0
  rw [View.read_apply]
  show V c main_v39 _ = V c main_v39 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega
theorem iblk0_1_apply (c : Dev nD) (t : Fin cfg0.N) (y : S10000x2.Idx) (i : S100000x2.Idx)
    (h0 : (i 0).val = 10000 * t.val + (y 0).val) (h1 : (i 1).val = (y 1).val) :
    (iblk0 V c 1 t : Vec Ideal S10000x2 .f32) y = (V c main_v42 : S100000x2.Idx → EReal) i := by
  obtain ⟨-, -, e0, e1, -⟩ := idx_facts0 t
  unfold iblk0
  rw [View.read_apply]
  show V c main_v42 _ = V c main_v42 _
  congr 1
  funext a
  apply Fin.ext
  match a with
  | ⟨0, _⟩ => show win0_1.index t 0 * 10000 + 1 * (y 0).val = (i 0).val; rw [e0, h0]; omega
  | ⟨1, _⟩ => show win0_1.index t 1 * 2 + 1 * (y 1).val = (i 1).val; rw [e1, h1]; omega
theorem iblk0_2_apply (c : Dev nD) (t : Fin cfg0.N) (y i : S128x128.Idx)
    (h0 : (i 0).val = (y 0).val) (h1 : (i 1).val = (y 1).val) :
    (iblk0 V c 2 t : Vec Ideal S128x128 .f32) y = (V c main_arg4 : S128x128.Idx → EReal) i := by
  obtain ⟨-, -, -, -, e0, e1, -⟩ := idx_facts0 t
  unfold iblk0
  rw [View.read_apply]
  show V c main_arg4 _ = V c main_arg4 _
  congr 1
  funext a
  apply Fin.ext
  match a with
  | ⟨0, _⟩ => show win0_2.index t 0 * 128 + 1 * (y 0).val = (i 0).val; rw [e0, h0]; omega
  | ⟨1, _⟩ => show win0_2.index t 1 * 128 + 1 * (y 1).val = (i 1).val; rw [e1, h1]; omega
theorem iblk0_3_apply (c : Dev nD) (t : Fin cfg0.N) (y i : S1x128.Idx)
    (h0 : (i 0).val = (y 0).val) (h1 : (i 1).val = (y 1).val) :
    (iblk0 V c 3 t : Vec Ideal S1x128 .f32) y = (V c main_v43 : S1x128.Idx → EReal) i := by
  obtain ⟨-, -, -, -, -, -, e0, e1, -⟩ := idx_facts0 t
  unfold iblk0
  rw [View.read_apply]
  show V c main_v43 _ = V c main_v43 _
  congr 1
  funext a
  apply Fin.ext
  match a with
  | ⟨0, _⟩ => show win0_3.index t 0 * 1 + 1 * (y 0).val = (i 0).val; rw [e0, h0]; omega
  | ⟨1, _⟩ => show win0_3.index t 1 * 128 + 1 * (y 1).val = (i 1).val; rw [e1, h1]; omega

/-- WHAT POINT `t` WRITES BACK is block `t` of `h1s` of the arrays the region is entered with. -/
theorem flushed0_4_eq (c : Dev nD) (t : Fin cfg0.N) :
    (dat0 V c).flushed 4 t = ((cfg0.win 4).blk t).view.read (Elt Ideal)
      (Cert.Spec.h1s (V c main_v39) (V c main_v42) (V c main_arg4) (V c main_v43)) := by
  show (cfg0.win 4).cut (grid0.coords t) ((dat0 V c).after 4 t) = _
  rw [after0_4]
  unfold out0_4
  obtain ⟨-, -, -, -, -, -, -, -, e0, e1⟩ := idx_facts0 t
  funext y
  show k0_pay1 (iblk0 V c 1 t) (iblk0 V c 0 t) (iblk0 V c 2 t) (iblk0 V c 3 t) y
    = Cert.Spec.h1s (V c main_v39) (V c main_v42) (V c main_arg4) (V c main_v43) (((cfg0.win 4).blk t).view.emb y)
  refine pay_eq_h1s _ _ _ _ _ _ _ _ t.val (fun y i => iblk0_0_apply V c t y i) (fun y i => iblk0_1_apply V c t y i)
    (fun y i => iblk0_2_apply V c t y i) (fun y i => iblk0_3_apply V c t y i) y _ ?_ ?_
  · show win0_4.index t 0 * 10000 + 1 * (y 0).val = 10000 * t.val + (y 0).val; rw [e0]; omega
  · show win0_4.index t 1 * 128 + 1 * (y 1).val = (y 1).val; rw [e1]; omega

/-- An index of the result array is in point `t`'s block iff each coordinate is in the block's range on its axis. -/
theorem mem_blk0_4 (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v44).slice (win0_4.rect t)).set ↔ _
  rw [View.set_slice_whole, Rect.mem_set_unit]
  exact Iff.rfl

/-- Every index of the result array is in the block of the point its row falls in: row `r` in that of point `r / 10000`. -/
theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, -, -, -, -, -, -, e0, e1⟩ := idx_facts0 ⟨(i 0).val / 10000, ht⟩
  refine ⟨⟨(i 0).val / 10000, ht⟩, flush0_4 _, ?_⟩
  rw [mem_blk0_4]
  intro a
  match a with
  | ⟨0, _⟩ =>
    show win0_4.index ⟨(i 0).val / 10000, ht⟩ 0 * 10000 ≤ (i 0).val ∧ (i 0).val < win0_4.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win0_4.index ⟨(i 0).val / 10000, ht⟩ 1 * 128 ≤ (i 1).val ∧ (i 1).val < win0_4.index ⟨(i 0).val / 10000, ht⟩ 1 * 128 + 128
    rw [e1]; omega

/-- THE RESULT ARRAY after the region: the first layer's stored rows, `h1s` of the arrays the region is entered with. -/
theorem arr0_4 (c : Dev nD) :
    (dat0 (F := Ideal) V c).arrAt 4 cfg0.N = Cert.Spec.h1s (V c main_v39) (V c main_v42) (V c main_arg4) (V c main_v43) :=
  (dat0 V c).arrAt_eq_of_cover 4 _ (fun t _ => flushed0_4_eq V c t) covered0_4

end

end Cert.KernelIdeal.Hand

end
-- ==== Proof.LibPool.lean ====
/-
  General lemmas for a POOLING BY ONE-HOT PRODUCT, accumulated block by block, against a scatter-add.

  A kernel pools node rows into graph rows as a matrix product with a one-hot matrix: the entry at (graph g, node n)
  is 1 when the node's graph number equals g and 0 otherwise; the product is formed one block of nodes at a time and
  added to an accumulator that starts at zero. The reference sums, for each graph, the rows of the nodes whose graph
  number is that graph. The node axis is padded to a whole number of blocks and a padded node carries a graph number
  that is no graph's, so it adds nothing.

  All sums are over the extended reals: a commutative additive monoid in which 0 * x = 0 and 1 * x = x hold for
  EVERY x, the infinite ones included, so nothing below asks for finiteness.

  Contents, in order:
   * the one-hot entry: the signed reading of the widened one-bit equality test of two 32-bit words is 1 or 0
     (onehot_word, onehot_entry), and equality of a word with a small row number is the signed reading being that
     number (toInt_ofNat_small, id_eq_iff);
   * the padded indicator sum is the sum over the real nodes that hit (onehot_sum);
   * a double sum over blocks and positions in a block is the sum over the flat index (block_index_lt, blocks_sum,
     blocks_sum_of_eq);
   * an accumulator that starts at zero plus the first part and adds one part per step is the sum of the parts
     (acc_fold_le, acc_fold, acc_fold_fin);
   * blocks and indicator together (pool_sum).
-/
import Idealize.ShloMosaic.PureOps.Ideal
import Idealize.ShloMosaic.PureOps.Ideal.Laws
import Idealize.ShloMosaic.Lib.ValueIdx
import Mathlib.Data.EReal.Basic
import Mathlib.Algebra.BigOperators.Fin
import Mathlib.Algebra.BigOperators.Group.Finset.Basic
import Mathlib.Logic.Equiv.Fin.Basic

noncomputable section

open scoped BigOperators

namespace Cert.LibPool

open Idealize.ShloMosaic

/-! ## The one-hot entry -/

/-- The equality test of two 32-bit words, a single bit, widened by zeros to 32 bits and read as a signed integer, is
    the extended real 1 when the words are equal and 0 when they are not: the bit is 1 or 0, widening by zeros keeps
    its value, and both values are non-negative so the signed reading is the value. -/
theorem onehot_word (a b : BitVec 32) :
    ((((IntOp.cmpi .eq a b).setWidth 32).toInt : ℝ) : EReal) = if a = b then (1 : EReal) else 0 := by
  by_cases h : a = b
  · subst h
    simp [IntOp.cmpi]
  · have hb : (a == b) = false := by simpa using h
    simp [IntOp.cmpi, hb, h]

/-- The one-hot matrix at an index, read at the ideal values: the signed-integer-to-float conversion of the
    zero-widened elementwise equality test of two 32-bit vectors of any shape is, at each index, 1 when the two
    elements are equal and 0 when they are not. -/
theorem onehot_entry {s : Shape} (u v : IVec s 32) (h : 1 < 32) (i : s.Idx) :
    (sitofp (F := Ideal) .f32 (extui 32 (cmpi .eq u v) h) : FVec Ideal s .f32) i
      = if u i = v i then (1 : EReal) else 0 :=
  onehot_word (u i) (v i)

/-- A natural number below 2^31, taken as a 32-bit word, reads back as itself when the word is read signed: it is
    below 2^32, so nothing wraps, and its double is below 2^32, so the sign bit is clear. -/
theorem toInt_ofNat_small (k : Nat) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1]
  have h2 : 2 * k < 2 ^ 32 := by omega
  rw [if_pos h2]

/-- A 32-bit word equals the word of a row number g < 128 exactly when its signed reading is g: the signed reading
    is injective on words and the row number's word reads back as g. So a test of equality with the row number and a
    test that the signed graph number is g agree, whatever the word (a negative or too large graph number equals no
    row number on either side). -/
theorem id_eq_iff (g : Fin 128) (b : BitVec 32) :
    BitVec.ofNat 32 g.val = b ↔ b.toInt = (g.val : Int) := by
  have key : (BitVec.ofNat 32 g.val).toInt = (g.val : Int) :=
    toInt_ofNat_small g.val (by have := g.isLt; omega)
  constructor
  · rintro rfl; exact key
  · intro h; exact BitVec.eq_of_toInt_eq (by rw [key, h])

/-! ## The padded indicator sum -/

/-- Over a node axis of P positions of which the first M are real nodes: if the indicator is 1 at a real node that
    hits, and 0 at every position that is not a real node that hits (a padded position among them), then the sum
    over all positions of indicator times row is the sum of the rows of the real nodes that hit. Term by term the
    product is the row or zero (1 * x = x and 0 * x = 0 for every extended real x); both sides are then the sum over
    the naturals below P, resp. below M, of one function that vanishes from M on. -/
theorem onehot_sum {M P : Nat} (hMP : M ≤ P) (hit : Fin M → Prop) [DecidablePred hit]
    (ind h : Fin P → EReal)
    (hind1 : ∀ (p : Fin P) (hp : p.val < M), hit ⟨p.val, hp⟩ → ind p = 1)
    (hind0 : ∀ p : Fin P, (∀ hp : p.val < M, ¬ hit ⟨p.val, hp⟩) → ind p = 0) :
    ∑ p : Fin P, ind p * h p
      = ∑ n ∈ (Finset.univ : Finset (Fin M)).filter hit, h ⟨n.val, lt_of_lt_of_le n.isLt hMP⟩ := by
  let G : ℕ → EReal := fun k =>
    if hk : k < M then (if hit ⟨k, hk⟩ then h ⟨k, lt_of_lt_of_le hk hMP⟩ else 0) else 0
  have hL : ∀ p : Fin P, ind p * h p = G p.val := by
    intro p
    by_cases hp : p.val < M
    · by_cases hh : hit ⟨p.val, hp⟩
      · simp [G, hp, hh, hind1 p hp hh]
      · have h0 : ind p = 0 := hind0 p (fun _ => hh)
        simp [G, hp, hh, h0]
    · have h0 : ind p = 0 := hind0 p (fun hp' => absurd hp' hp)
      simp [G, hp, h0]
  have hR : ∀ n : Fin M, (if hit n then h ⟨n.val, lt_of_lt_of_le n.isLt hMP⟩ else 0) = G n.val := by
    intro n
    simp [G, n.isLt]
  rw [Finset.sum_filter, Finset.sum_congr rfl (fun p _ => hL p), Finset.sum_congr rfl (fun n _ => hR n),
    Fin.sum_univ_eq_sum_range G P, Fin.sum_univ_eq_sum_range G M]
  symm
  apply Finset.sum_subset
  · intro k hk
    simp only [Finset.mem_range] at hk ⊢
    omega
  · intro k _ hk
    simp only [Finset.mem_range] at hk
    simp [G, hk]

/-! ## Blocks -/

/-- Position n of block t, of T blocks of B positions, is a flat index below T * B:
    t B + n < t B + B = (t + 1) B ≤ T B. -/
theorem block_index_lt {T B : Nat} (t : Fin T) (n : Fin B) : t.val * B + n.val < T * B := by
  have h1 : (t.val + 1) * B ≤ T * B := Nat.mul_le_mul_right B t.isLt
  have h2 : t.val * B + n.val < (t.val + 1) * B := by
    rw [Nat.add_mul, Nat.one_mul]; exact Nat.add_lt_add_left n.isLt _
  exact lt_of_lt_of_le h2 h1

/-- The sum over the blocks of the sums over the positions of a block is the sum over the flat index: the map
    (t, n) ↦ t B + n is a bijection from pairs onto the flat indices (division with remainder by B). -/
theorem blocks_sum (T B : Nat) (f : Fin (T * B) → EReal) :
    (∑ t : Fin T, ∑ n : Fin B, f ⟨t.val * B + n.val, block_index_lt t n⟩) = ∑ p : Fin (T * B), f p := by
  rw [← Fintype.sum_prod_type']
  refine Fintype.sum_equiv finProdFinEquiv _ _ ?_
  rintro ⟨t, n⟩
  congr 1
  apply Fin.ext
  simp [finProdFinEquiv, Nat.mul_comm, Nat.add_comm]

/-- The same with the flat length given as a number P known to be T * B (so that a function on the P flat indices
    needs no cast). -/
theorem blocks_sum_of_eq {T B P : Nat} (hP : T * B = P) (f : Fin P → EReal) :
    (∑ t : Fin T, ∑ n : Fin B, f ⟨t.val * B + n.val, hP ▸ block_index_lt t n⟩) = ∑ p : Fin P, f p := by
  subst hP
  exact blocks_sum T B f

/-! ## The accumulator -/

/-- An accumulator whose value after step 0 is zero plus part 0, and whose value after step t + 1 is its value after
    step t plus part t + 1 for every t < N, holds after step k ≤ N the sum of parts 0 … k. Induction on k. -/
theorem acc_fold_le (N : Nat) (part acc : ℕ → EReal) (h0 : acc 0 = 0 + part 0)
    (hs : ∀ t, t < N → acc (t + 1) = acc t + part (t + 1)) :
    ∀ k, k ≤ N → acc k = ∑ t ∈ Finset.range (k + 1), part t := by
  intro k
  induction k with
  | zero => intro _; simp [h0]
  | succ k ih =>
    intro hk
    rw [hs k (by omega), ih (by omega), Finset.sum_range_succ _ (k + 1)]

/-- With the step equation at every t, after step T' the accumulator is the sum of parts 0 … T'. -/
theorem acc_fold (T' : Nat) (part acc : ℕ → EReal) (h0 : acc 0 = 0 + part 0)
    (hs : ∀ t, acc (t + 1) = acc t + part (t + 1)) :
    acc T' = ∑ t ∈ Finset.range (T' + 1), part t :=
  acc_fold_le T' part acc h0 (fun t _ => hs t) T' le_rfl

/-- The same as a sum over the T' + 1 steps as a finite type, the step equation asked only below T'. -/
theorem acc_fold_fin (T' : Nat) (part acc : ℕ → EReal) (h0 : acc 0 = 0 + part 0)
    (hs : ∀ t, t < T' → acc (t + 1) = acc t + part (t + 1)) :
    acc T' = ∑ t : Fin (T' + 1), part t.val := by
  rw [Fin.sum_univ_eq_sum_range part (T' + 1)]
  exact acc_fold_le T' part acc h0 hs T' le_rfl

/-! ## The two together -/

/-- Blocks and indicator together: the sum over the blocks of the sums over a block's positions of indicator times
    row, on a node axis of P = T * B positions whose first M are the real nodes, is the sum of the rows of the real
    nodes that hit. -/
theorem pool_sum {T B M P : Nat} (hP : T * B = P) (hMP : M ≤ P) (hit : Fin M → Prop) [DecidablePred hit]
    (ind h : Fin P → EReal)
    (hind1 : ∀ (p : Fin P) (hp : p.val < M), hit ⟨p.val, hp⟩ → ind p = 1)
    (hind0 : ∀ p : Fin P, (∀ hp : p.val < M, ¬ hit ⟨p.val, hp⟩) → ind p = 0) :
    (∑ t : Fin T, ∑ n : Fin B,
        ind ⟨t.val * B + n.val, hP ▸ block_index_lt t n⟩ * h ⟨t.val * B + n.val, hP ▸ block_index_lt t n⟩)
      = ∑ n ∈ (Finset.univ : Finset (Fin M)).filter hit, h ⟨n.val, lt_of_lt_of_le n.isLt hMP⟩ :=
  (blocks_sum_of_eq hP (fun p => ind p * h p)).trans (onehot_sum hMP hit ind h hind1 hind0)

end Cert.LibPool
-- ==== Proof.KIVal1.lean ====
/-
  THE VALUE OF REGION 1 at the ideal values: after the run the [64,10] result array holds the network's head of the
  arrays the region is entered from, index by index.

  The body's three stored values are read at an index: the first point stores the zero table; every point stores the
  table it finds plus, at graph g and feature j, the sum over its 10000 nodes of the indicator "the node's graph number
  is g" times the node's dense row entry relu((x * s) W + b); the last point stores the table divided by the larger of
  the graph's count and one, times the classifier's weights, plus its bias. By induction on the point the table after
  point t is the sum of the contributions of blocks 0 … t; the ten blocks' contributions are a sum over blocks and
  positions of indicator times row, which is the sum of the rows of the nodes whose graph number, read signed, is g:
  the specification's per-graph sum. Only the last point writes the result block back, and that block is the whole
  array.
-/
import proofs.«428050_j45861660787100_2_alg».proof.Proof.KIReg1
import proofs.«428050_j45861660787100_2_alg».proof.Proof.LibPool
import proofs.«428050_j45861660787100_2_alg».proof.Proof.Spec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The three stored values of the second region's body, read at an index -/

/-- The table the first point stores is zero at every entry. -/
theorem pay1_apply (g : Fin 64) (j : Fin 128) : k1_pay1 (F := Ideal) (ix2 g j) = Cert.Spec.zeroW := by
  unfold k1_pay1
  simp only [shapeCast_self]
  rfl

/-! ### Rows by weights: the contraction runs over a row's 128 features -/

theorem lhs_dotD_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_dotD_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_dotD_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_dotD_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Rows times weights at row `n`, feature `j`: the sum over the features `k` of row entry times weight. -/
theorem matmulD_apply (a : FVec Ideal S10000x128 .f32) (w : FVec Ideal S128x128 .f32) (n : Fin 10000) (j : Fin 128) :
    matmul dot_S10000x128_S128x128_S10000x128_1_0_0_1_n_n none a w (constant S10000x128 .f32 0x00000000#32) (ix2 n j)
      = ∑ k : Fin 128, a (ix2 n k) * w (ix2 k j) := by
  show FloatOps.matmul dot_S10000x128_S128x128_S10000x128_1_0_0_1_n_n none a w (constant S10000x128 .f32 0x00000000#32) (ix2 n j) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 n j) ((ValueIdx.contrEquiv1 dot_S10000x128_S128x128_S10000x128_1_0_0_1_n_n 128 rfl rfl).symm k) = ix2 n k := funext fun a => Fin.ext (by
    match a with
    | ⟨0, _⟩ => exact lhs_dotD_0 _ _
    | ⟨1, _⟩ => exact (lhs_dotD_1 _ _).trans hk)
  have er : dot_S10000x128_S128x128_S10000x128_1_0_0_1_n_n.rhsIdx (ix2 n j) ((ValueIdx.contrEquiv1 dot_S10000x128_S128x128_S10000x128_1_0_0_1_n_n 128 rfl rfl).symm k) = ix2 k j := funext fun a => Fin.ext (by
    match a with
    | ⟨0, _⟩ => exact (rhs_dotD_0 _ _).trans hk
    | ⟨1, _⟩ => exact rhs_dotD_1 _ _)
  rw [el, er]

/-! ### Indicator by rows, the indicator transposed: the contraction runs over the block's 10000 nodes -/

theorem lhs_dotT_0 (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q
theorem lhs_dotT_1 (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl
theorem rhs_dotT_0 (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q
theorem rhs_dotT_1 (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

/-- The transposed indicator times the rows at graph `g`, feature `j`: the sum over the block's nodes `n` of the
    indicator at (n, g) times the row entry at (n, j). -/
theorem matmulT_apply (a : FVec Ideal S10000x64 .f32) (w : FVec Ideal S10000x128 .f32) (g : Fin 64) (j : Fin 128) :
    matmul dot_S10000x64_S10000x128_S64x128_0_0_1_1_n_n none a w (constant S64x128 .f32 0x00000000#32) (ix2 g j)
      = ∑ n : Fin 10000, a (ix2 n g) * w (ix2 n j) := by
  show FloatOps.matmul dot_S10000x64_S10000x128_S64x128_0_0_1_1_n_n none a w (constant S64x128 .f32 0x00000000#32) (ix2 g j) = _
  rw [Ideal.matmul_constant_zero_apply, ← Equiv.sum_comp (ValueIdx.contrEquiv1 dot_S10000x64_S10000x128_S64x128_0_0_1_1_n_n 10000 rfl rfl).symm]
  refine Finset.sum_congr rfl fun n _ => ?_
  have hn := ValueIdx.contrEquiv1_symm_val dot_S10000x64_S10000x128_S64x128_0_0_1_1_n_n 10000 rfl rfl n
  have el : dot_S10000x64_S10000x128_S64x128_0_0_1_1_n_n.lhsIdx (ix2 g j) ((ValueIdx.contrEquiv1 dot_S10000x64_S10000x128_S64x128_0_0_1_1_n_n 10000 rfl rfl).symm n) = ix2 n g := funext fun a => Fin.ext (by
    match a with
    | ⟨0, _⟩ => exact (lhs_dotT_0 _ _).trans hn
    | ⟨1, _⟩ => exact lhs_dotT_1 _ _)
  have er : dot_S10000x64_S10000x128_S64x128_0_0_1_1_n_n.rhsIdx (ix2 g j) ((ValueIdx.contrEquiv1 dot_S10000x64_S10000x128_S64x128_0_0_1_1_n_n 10000 rfl rfl).symm n) = ix2 n j := funext fun a => Fin.ext (by
    match a with
    | ⟨0, _⟩ => exact (rhs_dotT_0 _ _).trans hn
    | ⟨1, _⟩ => exact rhs_dotT_1 _ _)
  rw [el, er]

/-! ### Pooled rows by the classifier's weights: the contraction runs over the 128 features -/

theorem lhs_dotC_0 (i : S64x10.Idx) (q : dot_S64x128_S128x10_S64x10_1_0_0_1_n_n.contr.Idx) :
    (dot_S64x128_S128x10_S64x10_1_0_0_1_n_n.lhsIdx i q 0).val = (i 0).val := by
  unfold DotDims.lhsIdx
  rw [dif_neg (show ¬(0 : Fin S64x128.rank) ∈ dot_S64x128_S128x10_S64x10_1_0_0_1_n_n.lhsBatch by decide), dif_pos (show (0 : Fin S64x128.rank) ∈ dot_S64x128_S128x10_S64x10_1_0_0_1_n_n.lhsNonContracting by decide)]
  rfl
theorem lhs_dotC_1 (i : S64x10.Idx) (q : dot_S64x128_S128x10_S64x10_1_0_0_1_n_n.contr.Idx) :
    (dot_S64x128_S128x10_S64x10_1_0_0_1_n_n.lhsIdx i q 1).val = (q ⟨0, by decide⟩).val :=
  dot_S64x128_S128x10_S64x10_1_0_0_1_n_n.lhsIdx_val_of_single rfl i q
theorem rhs_dotC_0 (i : S64x10.Idx) (q : dot_S64x128_S128x10_S64x10_1_0_0_1_n_n.contr.Idx) :
    (dot_S64x128_S128x10_S64x10_1_0_0_1_n_n.rhsIdx i q 0).val = (q ⟨0, by decide⟩).val :=
  dot_S64x128_S128x10_S64x10_1_0_0_1_n_n.rhsIdx_val_of_single rfl i q
theorem rhs_dotC_1 (i : S64x10.Idx) (q : dot_S64x128_S128x10_S64x10_1_0_0_1_n_n.contr.Idx) :
    (dot_S64x128_S128x10_S64x10_1_0_0_1_n_n.rhsIdx i q 1).val = (i 1).val := by
  unfold DotDims.rhsIdx
  rw [dif_neg (show ¬(1 : Fin S128x10.rank) ∈ dot_S64x128_S128x10_S64x10_1_0_0_1_n_n.rhsBatch by decide), dif_pos (show (1 : Fin S128x10.rank) ∈ dot_S64x128_S128x10_S64x10_1_0_0_1_n_n.rhsNonContracting by decide)]
  rfl

/-- Pooled rows times the classifier's weights at graph `g`, class `l`: the sum over the features `j`. -/
theorem matmulC_apply (a : FVec Ideal S64x128 .f32) (w : FVec Ideal S128x10 .f32) (g : Fin 64) (l : Fin 10) :
    matmul dot_S64x128_S128x10_S64x10_1_0_0_1_n_n none a w (constant S64x10 .f32 0x00000000#32) (ix2 g l)
      = ∑ j : Fin 128, a (ix2 g j) * w (ix2 j l) := by
  show FloatOps.matmul dot_S64x128_S128x10_S64x10_1_0_0_1_n_n none a w (constant S64x10 .f32 0x00000000#32) (ix2 g l) = _
  rw [Ideal.matmul_constant_zero_apply, ← Equiv.sum_comp (ValueIdx.contrEquiv1 dot_S64x128_S128x10_S64x10_1_0_0_1_n_n 128 rfl rfl).symm]
  refine Finset.sum_congr rfl fun k _ => ?_
  have hk := ValueIdx.contrEquiv1_symm_val dot_S64x128_S128x10_S64x10_1_0_0_1_n_n 128 rfl rfl k
  have el : dot_S64x128_S128x10_S64x10_1_0_0_1_n_n.lhsIdx (ix2 g l) ((ValueIdx.contrEquiv1 dot_S64x128_S128x10_S64x10_1_0_0_1_n_n 128 rfl rfl).symm k) = ix2 g k := funext fun a => Fin.ext (by
    match a with
    | ⟨0, _⟩ => exact lhs_dotC_0 _ _
    | ⟨1, _⟩ => exact (lhs_dotC_1 _ _).trans hk)
  have er : dot_S64x128_S128x10_S64x10_1_0_0_1_n_n.rhsIdx (ix2 g l) ((ValueIdx.contrEquiv1 dot_S64x128_S128x10_S64x10_1_0_0_1_n_n 128 rfl rfl).symm k) = ix2 k l := funext fun a => Fin.ext (by
    match a with
    | ⟨0, _⟩ => exact (rhs_dotC_0 _ _).trans hk
    | ⟨1, _⟩ => exact rhs_dotC_1 _ _)
  rw [el, er]

/-! ### Columns and rows stretched over a block -/

/-- A column of 10000 entries stretched over 128 lanes reads the row's entry. -/
theorem bcol_10000x128 {α : Type} (x : S10000x1.Idx → α) (n : Fin 10000) (k : Fin 128) :
    broadcastTo S10000x128 x broadcasts_S10000x1_S10000x128 (ix2 n k) = x (ix2 n 0) :=
  broadcastTo_apply x broadcasts_S10000x1_S10000x128 (ix2 n k) (ix2 n 0) (fun a => match a with
    | ⟨0, _⟩ => by show n.val = if (10000 : Nat) = 1 then 0 else n.val; rw [if_neg (by decide)]
    | ⟨1, _⟩ => by show 0 = if (1 : Nat) = 1 then 0 else k.val; rw [if_pos rfl])

/-- A column of 10000 entries stretched over 64 lanes reads the row's entry. -/
theorem bcol_10000x64 {α : Type} (x : S10000x1.Idx → α) (n : Fin 10000) (g : Fin 64) :
    broadcastTo S10000x64 x broadcasts_S10000x1_S10000x64 (ix2 n g) = x (ix2 n 0) :=
  broadcastTo_apply x broadcasts_S10000x1_S10000x64 (ix2 n g) (ix2 n 0) (fun a => match a with
    | ⟨0, _⟩ => by show n.val = if (10000 : Nat) = 1 then 0 else n.val; rw [if_neg (by decide)]
    | ⟨1, _⟩ => by show 0 = if (1 : Nat) = 1 then 0 else g.val; rw [if_pos rfl])

/-- A column of 64 entries stretched over 128 lanes reads the row's entry. -/
theorem bcol_64x128 {α : Type} (x : S64x1.Idx → α) (g : Fin 64) (j : Fin 128) :
    broadcastTo S64x128 x broadcasts_S64x1_S64x128 (ix2 g j) = x (ix2 g 0) :=
  broadcastTo_apply x broadcasts_S64x1_S64x128 (ix2 g j) (ix2 g 0) (fun a => match a with
    | ⟨0, _⟩ => by show g.val = if (64 : Nat) = 1 then 0 else g.val; rw [if_neg (by decide)]
    | ⟨1, _⟩ => by show 0 = if (1 : Nat) = 1 then 0 else j.val; rw [if_pos rfl])

/-- A row of 128 entries stretched over 10000 rows reads the lane's entry. -/
theorem brow_10000x128 {α : Type} (x : S1x128.Idx → α) (n : Fin 10000) (j : Fin 128) :
    broadcastTo S10000x128 x broadcasts_S1x128_S10000x128 (ix2 n j) = x (ix2 0 j) :=
  broadcastTo_apply x broadcasts_S1x128_S10000x128 (ix2 n j) (ix2 0 j) (fun a => match a with
    | ⟨0, _⟩ => by show 0 = if (1 : Nat) = 1 then 0 else n.val; rw [if_pos rfl]
    | ⟨1, _⟩ => by show j.val = if (128 : Nat) = 1 then 0 else j.val; rw [if_neg (by decide)])

/-- A row of 10 entries stretched over 64 rows reads the lane's entry. -/
theorem brow_64x10 {α : Type} (x : S1x10.Idx → α) (g : Fin 64) (l : Fin 10) :
    broadcastTo S64x10 x broadcasts_S1x10_S64x10 (ix2 g l) = x (ix2 0 l) :=
  broadcastTo_apply x broadcasts_S1x10_S64x10 (ix2 g l) (ix2 0 l) (fun a => match a with
    | ⟨0, _⟩ => by show 0 = if (1 : Nat) = 1 then 0 else g.val; rw [if_pos rfl]
    | ⟨1, _⟩ => by show l.val = if (10 : Nat) = 1 then 0 else l.val; rw [if_neg (by decide)])

/-- The lane counter of a [10000, 64] block reads the lane's number. -/
theorem iota_10000x64 (n : Fin 10000) (g : Fin 64) :
    iota .tc S10000x64 32 [1] iota_S10000x64_d1_w32 (ix2 n g) = BitVec.ofNat 32 g.val := by
  unfold iota
  show BitVec.ofNat 32 (0 * 64 + g.val) = _
  rw [Nat.zero_mul, Nat.zero_add]

/-! ### The step and the classifier at an index -/

/-- One block's contribution to the table at graph `g`, feature `j`: over the block's nodes, the indicator "the
    node's graph number is `g`" times the node's dense row entry. -/
def bpart (x0 : Vec Ideal S10000x128 .f32) (x1 : Vec Ideal S10000x1 .f32) (x2 : Vec Ideal S10000x1 .i32)
    (x4 : Vec Ideal S128x128 .f32) (x5 : Vec Ideal S1x128 .f32) (g : Fin 64) (j : Fin 128) : EReal :=
  ∑ n : Fin 10000, (if x2 (ix2 n 0) = BitVec.ofNat 32 g.val then (1 : EReal) else 0)
    * max ((∑ k : Fin 128, (x0 (ix2 n k) * x1 (ix2 n 0)) * x4 (ix2 k j)) + x5 (ix2 0 j)) Cert.Spec.zeroW

/-- The table after a step is the table before plus the block's contribution. -/
theorem pay2_apply (v3 : Vec Ideal S10000x128 .f32) (v5 : Vec Ideal S10000x1 .f32) (v9 : Vec Ideal S128x128 .f32)
    (v11 : Vec Ideal S1x128 .f32) (v17 : Vec Ideal S10000x1 .i32) (v25 : Vec Ideal S64x128 .f32) (g : Fin 64) (j : Fin 128) :
    k1_pay2 (F := Ideal) v3 v5 v9 v11 v17 v25 (ix2 g j) = v25 (ix2 g j) + bpart v3 v5 v17 v9 v11 g j := by
  unfold k1_pay2 bpart
  simp only [shapeCast_self]
  rw [addf_apply, matmulT_apply]
  refine congrArg (v25 (ix2 g j) + ·) (Finset.sum_congr rfl fun n _ => ?_)
  rw [Cert.LibPool.onehot_entry, bcol_10000x64, iota_10000x64, maximumf_apply, addf_apply, matmulD_apply, brow_10000x128,
    broadcast_apply]
  refine congrArg₂ (· * ·) rfl (congrArg₂ max (congrArg₂ (· + ·) (Finset.sum_congr rfl fun k _ => ?_) rfl) rfl)
  rw [mulf_apply, bcol_10000x128]

/-- What the last point stores at graph `g`, class `l`: the table divided by the larger of the graph's count and one,
    times the classifier's weights, plus its bias. -/
theorem pay3_apply (v33 : Vec Ideal S64x128 .f32) (v34 : Vec Ideal S64x1 .f32) (v40 : Vec Ideal S128x10 .f32)
    (v42 : Vec Ideal S1x10 .f32) (g : Fin 64) (l : Fin 10) :
    k1_pay3 (F := Ideal) v33 v34 v40 v42 (ix2 g l)
      = (∑ j : Fin 128, Ideal.div (v33 (ix2 g j)) (max (v34 (ix2 g 0)) Cert.Spec.oneW) * v40 (ix2 j l)) + v42 (ix2 0 l) := by
  unfold k1_pay3
  simp only [shapeCast_self]
  rw [addf_apply, matmulC_apply, brow_64x10]
  refine congrArg₂ (· + ·) (Finset.sum_congr rfl fun j _ => ?_) rfl
  rw [divf_apply, bcol_64x128, maximumf_apply, broadcast_apply]
  rfl

/-! ## From the blocks' contributions to the per-graph sums -/

/-- Position `n` of block `t` as a node number: ten blocks of 10000 nodes. -/
abbrev node (t : Fin 10) (n : Fin 10000) : Fin 100000 :=
  ⟨t.val * 10000 + n.val, by have := t.isLt; have := n.isLt; omega⟩

/-- The ten blocks' contributions add up to the specification's per-graph sum: each block reads the arrays at its own
    nodes, the indicator "the graph number's word is the word of `g`" is the indicator "the graph number, read signed,
    is `g`", and a sum over blocks and positions of indicator times row is the sum of the rows that hit. -/
theorem pooled_of_blocks (X : Cert.Spec.SNxD.Idx → EReal) (s : Cert.Spec.SNx1.Idx → EReal)
    (gid : Cert.Spec.SNx1.Idx → BitVec 32) (W : Cert.Spec.SDxD.Idx → EReal) (b : Cert.Spec.S1xD.Idx → EReal)
    (x0 : Fin 10 → Vec Ideal S10000x128 .f32) (x1 : Fin 10 → Vec Ideal S10000x1 .f32)
    (x2 : Fin 10 → Vec Ideal S10000x1 .i32) (x4 : Fin 10 → Vec Ideal S128x128 .f32) (x5 : Fin 10 → Vec Ideal S1x128 .f32)
    (h0 : ∀ t n k, x0 t (ix2 n k) = X (ix2 (node t n) k))
    (h1 : ∀ t n, x1 t (ix2 n 0) = s (ix2 (node t n) 0))
    (h2 : ∀ t n, x2 t (ix2 n 0) = gid (ix2 (node t n) 0))
    (h4 : ∀ t, x4 t = W) (h5 : ∀ t, x5 t = b) (g : Fin 64) (j : Fin 128) :
    ∑ t : Fin 10, bpart (x0 t) (x1 t) (x2 t) (x4 t) (x5 t) g j = Cert.Spec.pooled X s gid W b g j := by
  have hg : ∀ w : BitVec 32, w = BitVec.ofNat 32 g.val ↔ w.toInt = (g.val : Int) := fun w =>
    eq_comm.trans (Cert.LibPool.id_eq_iff ⟨g.val, by have := g.isLt; omega⟩ w)
  have key := Cert.LibPool.pool_sum (T := 10) (B := 10000) (M := 100000) (P := 100000) rfl le_rfl
    (fun n : Fin 100000 => (gid (ix2 n ⟨0, Nat.one_pos⟩)).toInt = (g.val : Int))
    (fun p : Fin 100000 => if gid (ix2 p 0) = BitVec.ofNat 32 g.val then (1 : EReal) else 0)
    (fun p : Fin 100000 => Cert.Spec.dense X (fun n => s (ix2 n 0)) W (fun j => b (ix2 0 j)) p j)
    (fun p hp hit => if_pos ((hg _).mpr hit))
    (fun p hno => if_neg (fun e => hno p.isLt ((hg _).mp e)))
  unfold Cert.Spec.pooled
  refine Eq.trans (Finset.sum_congr rfl fun t _ => ?_) key
  unfold bpart Cert.Spec.dense
  refine Finset.sum_congr rfl fun n _ => ?_
  rw [h2 t n, h1 t n, h4 t, h5 t]
  simp only [h0 t n]

/-! ## The region's blocks, read off the arrays it is entered from -/

section
variable (V : (c : Dev nD) → (b : Ref sig .tc) → Buf (Elt Ideal) ((c : Thread nD τ).loc b))

/-- The windows' block numbers, decided over the grid: the three node-indexed windows move with the point along the
    node axis; every other window, the result's among them, stays at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- The arrays the region is entered from, at their literal types. -/
abbrev arrX (c : Dev nD) : Cert.Spec.SNxD.Idx → EReal := V c main_v54
abbrev arrS (c : Dev nD) : Cert.Spec.SNx1.Idx → EReal := V c main_v60
abbrev arrG (c : Dev nD) : Cert.Spec.SNx1.Idx → BitVec 32 := V c main_v0
abbrev arrC (c : Dev nD) : Cert.Spec.SGx1.Idx → EReal := V c main_v59
abbrev arrW (c : Dev nD) : Cert.Spec.SDxD.Idx → EReal := V c main_arg6
abbrev arrB (c : Dev nD) : Cert.Spec.S1xD.Idx → EReal := V c main_v61
abbrev arrWc (c : Dev nD) : Cert.Spec.SDxC.Idx → EReal := V c main_arg8
abbrev arrBc (c : Dev nD) : Cert.Spec.S1xC.Idx → EReal := V c main_v62

/-- The blocks the body reads at point `t`, at their literal types. -/
abbrev blkX (c : Dev nD) (t : Fin cfg1.N) : Vec Ideal S10000x128 .f32 := iblk1 V c 0 t
abbrev blkS (c : Dev nD) (t : Fin cfg1.N) : Vec Ideal S10000x1 .f32 := iblk1 V c 1 t
abbrev blkG (c : Dev nD) (t : Fin cfg1.N) : Vec Ideal S10000x1 .i32 := iblk1 V c 2 t
abbrev blkC (c : Dev nD) (t : Fin cfg1.N) : Vec Ideal S64x1 .f32 := iblk1 V c 3 t
abbrev blkW (c : Dev nD) (t : Fin cfg1.N) : Vec Ideal S128x128 .f32 := iblk1 V c 4 t
abbrev blkB (c : Dev nD) (t : Fin cfg1.N) : Vec Ideal S1x128 .f32 := iblk1 V c 5 t
abbrev blkWc (c : Dev nD) (t : Fin cfg1.N) : Vec Ideal S128x10 .f32 := iblk1 V c 6 t
abbrev blkBc (c : Dev nD) (t : Fin cfg1.N) : Vec Ideal S1x10 .f32 := iblk1 V c 7 t

/-- Block `t` of the aggregated rows reads the array at node `10000 t + n`. -/
theorem blkX_apply (c : Dev nD) (t : Fin cfg1.N) (n : Fin 10000) (k : Fin 128) (hn : t.val * 10000 + n.val < 100000) :
    blkX V c t (ix2 n k) = arrX V c (ix2 ⟨t.val * 10000 + n.val, hn⟩ k) := by
  obtain ⟨e0, e1, -⟩ := idx1 t
  show V c main_v54 (((cfg1.win 0).blk t).view.emb (ix2 n k)) = V c main_v54 (ix2 ⟨t.val * 10000 + n.val, hn⟩ k)
  refine congrArg (V c main_v54) (funext fun a => Fin.ext ?_)
  match a with
  | ⟨0, _⟩ => show win1_0.index t (0 : Fin 2) * 10000 + 1 * n.val = t.val * 10000 + n.val; omega
  | ⟨1, _⟩ => show win1_0.index t (1 : Fin 2) * 128 + 1 * k.val = k.val; omega

/-- Block `t` of the in-degree factors reads the column at node `10000 t + n`. -/
theorem blkS_apply (c : Dev nD) (t : Fin cfg1.N) (n : Fin 10000) (hn : t.val * 10000 + n.val < 100000) :
    blkS V c t (ix2 n 0) = arrS V c (ix2 ⟨t.val * 10000 + n.val, hn⟩ 0) := by
  obtain ⟨-, -, e0, e1, -⟩ := idx1 t
  show V c main_v60 (((cfg1.win 1).blk t).view.emb (ix2 n 0)) = V c main_v60 (ix2 ⟨t.val * 10000 + n.val, hn⟩ 0)
  refine congrArg (V c main_v60) (funext fun a => Fin.ext ?_)
  match a with
  | ⟨0, _⟩ => show win1_1.index t (0 : Fin 2) * 10000 + 1 * n.val = t.val * 10000 + n.val; omega
  | ⟨1, _⟩ => show win1_1.index t (1 : Fin 2) * 1 + 1 * 0 = 0; omega

/-- Block `t` of the graph numbers reads the column at node `10000 t + n`. -/
theorem blkG_apply (c : Dev nD) (t : Fin cfg1.N) (n : Fin 10000) (hn : t.val * 10000 + n.val < 100000) :
    blkG V c t (ix2 n 0) = arrG V c (ix2 ⟨t.val * 10000 + n.val, hn⟩ 0) := by
  obtain ⟨-, -, -, -, e0, e1, -⟩ := idx1 t
  show V c main_v0 (((cfg1.win 2).blk t).view.emb (ix2 n 0)) = V c main_v0 (ix2 ⟨t.val * 10000 + n.val, hn⟩ 0)
  refine congrArg (V c main_v0) (funext fun a => Fin.ext ?_)
  match a with
  | ⟨0, _⟩ => show win1_2.index t (0 : Fin 2) * 10000 + 1 * n.val = t.val * 10000 + n.val; omega
  | ⟨1, _⟩ => show win1_2.index t (1 : Fin 2) * 1 + 1 * 0 = 0; omega

/-- The counts' one block is the whole column. -/
theorem blkC_eq (c : Dev nD) (t : Fin cfg1.N) : blkC V c t = arrC V c := by
  obtain ⟨-, -, -, -, -, -, e0, e1, -⟩ := idx1 t
  funext y
  show V c main_v59 (((cfg1.win 3).blk t).view.emb y) = V c main_v59 y
  refine congrArg (V c main_v59) (funext fun a => Fin.ext ?_)
  match a with
  | ⟨0, _⟩ => show win1_3.index t (0 : Fin 2) * 64 + 1 * (y 0).val = (y 0).val; omega
  | ⟨1, _⟩ => show win1_3.index t (1 : Fin 2) * 1 + 1 * (y 1).val = (y 1).val; omega

/-- The weights' one block is the whole matrix. -/
theorem blkW_eq (c : Dev nD) (t : Fin cfg1.N) : blkW V c t = arrW V c := by
  obtain ⟨-, -, -, -, -, -, -, -, e0, e1, -⟩ := idx1 t
  funext y
  show V c main_arg6 (((cfg1.win 4).blk t).view.emb y) = V c main_arg6 y
  refine congrArg (V c main_arg6) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The bias row's one block is the whole row. -/
theorem blkB_eq (c : Dev nD) (t : Fin cfg1.N) : blkB V c t = arrB V c := by
  obtain ⟨-, -, -, -, -, -, -, -, -, -, e0, e1, -⟩ := idx1 t
  funext y
  show V c main_v61 (((cfg1.win 5).blk t).view.emb y) = V c main_v61 y
  refine congrArg (V c main_v61) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The classifier's weights' one block is the whole matrix. -/
theorem blkWc_eq (c : Dev nD) (t : Fin cfg1.N) : blkWc V c t = arrWc V c := by
  obtain ⟨-, -, -, -, -, -, -, -, -, -, -, -, e0, e1, -⟩ := idx1 t
  funext y
  show V c main_arg8 (((cfg1.win 6).blk t).view.emb y) = V c main_arg8 y
  refine congrArg (V c main_arg8) (funext fun a => Fin.ext ?_)
  match a with
  | ⟨0, _⟩ => show win1_6.index t (0 : Fin 2) * 128 + 1 * (y 0).val = (y 0).val; omega
  | ⟨1, _⟩ => show win1_6.index t (1 : Fin 2) * 10 + 1 * (y 1).val = (y 1).val; omega

/-- The classifier's bias row's one block is the whole row. -/
theorem blkBc_eq (c : Dev nD) (t : Fin cfg1.N) : blkBc V c t = arrBc V c := by
  obtain ⟨-, -, -, -, -, -, -, -, -, -, -, -, -, -, e0, e1, -⟩ := idx1 t
  funext y
  show V c main_v62 (((cfg1.win 7).blk t).view.emb y) = V c main_v62 y
  refine congrArg (V c main_v62) (funext fun a => Fin.ext ?_)
  match a with
  | ⟨0, _⟩ => show win1_7.index t (0 : Fin 2) * 1 + 1 * (y 0).val = (y 0).val; omega
  | ⟨1, _⟩ => show win1_7.index t (1 : Fin 2) * 10 + 1 * (y 1).val = (y 1).val; omega

/-! ## The table after each point, and the value the last point stores -/

/-- The table after point `n`, at graph `g` and feature `j`, is the sum of the contributions of blocks 0 … n:
    induction on the point. -/
theorem acc1_apply (c : Dev nD) (g : Fin 64) (j : Fin 128) : ∀ (n : ℕ) (h : n < cfg1.N),
    acc1 V c n h (ix2 g j)
      = ∑ t : Fin (n + 1), bpart (blkX V c ⟨t.val, lt_of_lt_of_le t.isLt (Nat.succ_le_of_lt h)⟩)
          (blkS V c ⟨t.val, lt_of_lt_of_le t.isLt (Nat.succ_le_of_lt h)⟩)
          (blkG V c ⟨t.val, lt_of_lt_of_le t.isLt (Nat.succ_le_of_lt h)⟩)
          (blkW V c ⟨t.val, lt_of_lt_of_le t.isLt (Nat.succ_le_of_lt h)⟩)
          (blkB V c ⟨t.val, lt_of_lt_of_le t.isLt (Nat.succ_le_of_lt h)⟩) g j
  | 0, h => by
    rw [Fin.sum_univ_one]
    show k1_pay2 (F := Ideal) (blkX V c ⟨0, h⟩) (blkS V c ⟨0, h⟩) (blkW V c ⟨0, h⟩) (blkB V c ⟨0, h⟩) (blkG V c ⟨0, h⟩)
      (k1_pay1 (F := Ideal)) (ix2 g j) = _
    refine (pay2_apply (blkX V c ⟨0, h⟩) (blkS V c ⟨0, h⟩) (blkW V c ⟨0, h⟩) (blkB V c ⟨0, h⟩) (blkG V c ⟨0, h⟩)
      (k1_pay1 (F := Ideal)) g j).trans ?_
    rw [pay1_apply]
    show Ideal.ofBits .f32 0x00000000#32 + _ = _
    rw [Ideal.ofBits_zero_f32, zero_add]
    rfl
  | n + 1, h => by
    rw [Fin.sum_univ_castSucc]
    show k1_pay2 (F := Ideal) (blkX V c ⟨n + 1, h⟩) (blkS V c ⟨n + 1, h⟩) (blkW V c ⟨n + 1, h⟩) (blkB V c ⟨n + 1, h⟩)
      (blkG V c ⟨n + 1, h⟩) (acc1 V c n (Nat.lt_of_succ_lt h)) (ix2 g j) = _
    refine (pay2_apply (blkX V c ⟨n + 1, h⟩) (blkS V c ⟨n + 1, h⟩) (blkW V c ⟨n + 1, h⟩) (blkB V c ⟨n + 1, h⟩)
      (blkG V c ⟨n + 1, h⟩) (acc1 V c n (Nat.lt_of_succ_lt h)) g j).trans ?_
    rw [acc1_apply c g j n (Nat.lt_of_succ_lt h)]
    rfl

/-- After the last point the table holds the specification's per-graph sums. -/
theorem acc1_last (c : Dev nD) (h : 9 < cfg1.N) (g : Fin 64) (j : Fin 128) :
    acc1 V c 9 h (ix2 g j)
      = Cert.Spec.pooled (arrX V c) (arrS V c) (arrG V c) (arrW V c) (arrB V c) g j := by
  have hN : cfg1.N = 10 := N_1
  have hlt : ∀ t : Fin 10, t.val < cfg1.N := fun t => by rw [hN]; exact t.isLt
  rw [acc1_apply V c g j 9 h]
  exact pooled_of_blocks (arrX V c) (arrS V c) (arrG V c) (arrW V c) (arrB V c)
    (fun t => blkX V c ⟨t.val, hlt t⟩) (fun t => blkS V c ⟨t.val, hlt t⟩) (fun t => blkG V c ⟨t.val, hlt t⟩)
    (fun t => blkW V c ⟨t.val, hlt t⟩) (fun t => blkB V c ⟨t.val, hlt t⟩)
    (fun t n k => blkX_apply V c ⟨t.val, hlt t⟩ n k _) (fun t n => blkS_apply V c ⟨t.val, hlt t⟩ n _)
    (fun t n => blkG_apply V c ⟨t.val, hlt t⟩ n _) (fun t => blkW_eq V c ⟨t.val, hlt t⟩)
    (fun t => blkB_eq V c ⟨t.val, hlt t⟩) g j

/-- What the last point stores is the network's head at every index. -/
theorem out1_8_apply (c : Dev nD) (t : Fin cfg1.N) (h9 : t.val = 9) (g : Fin 64) (l : Fin 10) :
    out1_8 V c t (ix2 g l)
      = Cert.Spec.head (arrX V c) (arrS V c) (arrG V c) (arrC V c) (arrW V c) (arrB V c) (arrWc V c) (arrBc V c) (ix2 g l) := by
  obtain ⟨tv, tlt⟩ := t
  dsimp only at h9
  subst h9
  show k1_pay3 (F := Ideal) (acc1 V c 9 tlt) (blkC V c ⟨9, tlt⟩) (blkWc V c ⟨9, tlt⟩) (blkBc V c ⟨9, tlt⟩) (ix2 g l) = _
  refine (pay3_apply (acc1 V c 9 tlt) (blkC V c ⟨9, tlt⟩) (blkWc V c ⟨9, tlt⟩) (blkBc V c ⟨9, tlt⟩) g l).trans ?_
  rw [blkC_eq V c ⟨9, tlt⟩, blkWc_eq V c ⟨9, tlt⟩, blkBc_eq V c ⟨9, tlt⟩]
  show _ = (∑ j : Fin 128, Ideal.div (Cert.Spec.pooled (arrX V c) (arrS V c) (arrG V c) (arrW V c) (arrB V c) g j)
      (max (arrC V c (ix2 g 0)) Cert.Spec.oneW) * arrWc V c (ix2 j l)) + arrBc V c (ix2 0 l)
  refine congrArg₂ (· + ·) (Finset.sum_congr rfl fun j _ => ?_) rfl
  rw [acc1_last V c tlt g j]

/-! ## From the one written block to the array -/

/-- What the write-back at the last point writes is the block of the network's head there. -/
theorem flushed1_8 (c : Dev nD) (t : Fin cfg1.N) (hf : (cfg1.win 8).flush t = true) :
    (dat1 (F := Ideal) V c).flushed 8 t = ((cfg1.win 8).blk t).view.read (Elt Ideal)
      (Cert.Spec.head (arrX V c) (arrS V c) (arrG V c) (arrC V c) (arrW V c) (arrB V c) (arrWc V c) (arrBc V c)) := by
  have hN : cfg1.N = 10 := N_1
  have h9 : t.val = 9 := by have := (flush1_8 t).mp hf; have := t.isLt; omega
  obtain ⟨-, -, -, -, -, -, -, -, -, -, -, -, -, -, -, -, e0, e1⟩ := idx1 t
  show (cfg1.win 8).cut (grid1.coords t) ((dat1 (F := Ideal) V c).after 8 t) = _
  rw [after1_8]
  funext y
  show out1_8 V c t y = Cert.Spec.head (arrX V c) (arrS V c) (arrG V c) (arrC V c) (arrW V c) (arrB V c) (arrWc V c)
    (arrBc V c) (((cfg1.win 8).blk t).view.emb y)
  have hy : ((cfg1.win 8).blk t).view.emb y = y := funext fun a => Fin.ext (by
    match a with
    | ⟨0, _⟩ => show win1_8.index t (0 : Fin 2) * 64 + 1 * (y 0).val = (y 0).val; omega
    | ⟨1, _⟩ => show win1_8.index t (1 : Fin 2) * 10 + 1 * (y 1).val = (y 1).val; omega)
  rw [hy]
  obtain ⟨g, l, rfl⟩ : ∃ (g : Fin 64) (l : Fin 10), y = ix2 g l := ⟨y 0, y 1, eq_ix2 y⟩
  exact out1_8_apply V c t h9 g l

/-- The last point's block covers the whole [64,10] array. -/
theorem cover1_8 (c : Dev nD) (i : ((cfg1.win 8).arr.view.loc (c.tc : Thread nD τ)).2.ty.Idx) :
    ∃ t : Fin cfg1.N, (cfg1.win 8).flush t = true ∧ i ∈ ((cfg1.win 8).blk t).view.set := by
  refine ⟨t1_9, (flush1_8 t1_9).mpr rfl, ?_⟩
  obtain ⟨-, -, -, -, -, -, -, -, -, -, -, -, -, -, -, -, e0, e1⟩ := idx1 t1_9
  show i ∈ ((View.whole main_v63).slice (win1_8.rect t1_9)).set
  rw [View.set_slice_whole, Rect.mem_set_unit]
  intro a
  have h0 : (i 0 : Nat) < 64 := (i 0).isLt
  have h1 : (i 1 : Nat) < 10 := (i 1).isLt
  match a with
  | ⟨0, _⟩ => show win1_8.index t1_9 (0 : Fin 2) * 64 ≤ (i 0 : Nat) ∧ (i 0 : Nat) < win1_8.index t1_9 (0 : Fin 2) * 64 + 64; omega
  | ⟨1, _⟩ => show win1_8.index t1_9 (1 : Fin 2) * 10 ≤ (i 1 : Nat) ∧ (i 1 : Nat) < win1_8.index t1_9 (1 : Fin 2) * 10 + 10; omega

/-- THE RESULT ARRAY after the region: the network's head of the arrays the region is entered from. -/
theorem arr1_8 (c : Dev nD) : (dat1 (F := Ideal) V c).arrAt 8 cfg1.N
    = Cert.Spec.head (V c main_v54) (V c main_v60) (V c main_v0) (V c main_v59) (V c main_arg6) (V c main_v61)
        (V c main_arg8) (V c main_v62) :=
  (dat1 (F := Ideal) V c).arrAt_eq_of_cover 8 _ (flushed1_8 V c) (cover1_8 c)

end

end Cert.KernelIdeal.Hand

end
-- ==== Proof.KIHost.lean ====
/-
  WHAT THE HOST STRETCHES LEAVE IN THE BUFFERS THE TWO REGIONS READ.

  Between its two kernel regions the program runs straight lines of whole-array operations. This file reads, for any float
  values, what those lines leave in each buffer a region takes as an operand, as one operation term of the argument
  arrays (and, for the second region, of what the first region left in its output):

  * the degree factor of a list of edge ends: with `deg n` the number of listed ends equal to `n`, the factor is
    `1 / sqrt (max (deg n) 1)` where `deg n > 0` and `0` elsewhere (`invDeg`);
  * the first layer's aggregate: the rows of the feature table read at the edges' sources, each scaled by the source's
    degree factor, and added up by destination (`agg1K`); beside it the two degree factors as the two columns of one
    table (`dnK`);
  * the second layer's aggregate: the rows the first region left, read at the sources and added up by destination
    (`agg2K`); the number of nodes of each graph (`cntK`);
  * reshapes of arguments (a bias as a one-row table, the graph ids and a degree factor as columns).

  Each line is evaluated from an arbitrary starting valuation first (the operations' results composed, every other buffer
  as it was); the lines are then chained from the launch contents, a buffer that a line does not write being carried
  across it unchanged.
-/
import proofs.«428050_j45861660787100_2_alg».proof.Proof.Gen.KernelIdeal.Regions

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-! ## The terms -/

/-- How many of the listed edge ends fall on each node: a one added at every listed end, from zero. -/
def degK (idx : Vec F S1600000 .i32) : Vec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The degree factor of a list of edge ends: the inverse square root of the count (of at least one) where the count
    is positive, zero elsewhere. -/
def invDeg (idx : Vec F S1600000 .i32) : Vec F S100000 .f32 :=
  select (cmpf .ogt (degK idx) (broadcastInDim S100000 ![] bcast_S_S100000 (constant S_ .f32 0x00000000#32)))
    (Host.rsqrt (maximumf (degK idx) (broadcastInDim S100000 ![] bcast_S_S100000 (constant S_ .f32 0x3F800000#32))))
    (broadcastInDim S100000 ![] bcast_S_S100000 (id (constant S_ .f32 0x00000000#32)))

/-- The sources as a column of start indices, a negative entry counted from the end (the table's height added). -/
def normIdx (src : Vec F S1600000 .i32) : Vec F S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- The first layer's aggregate: the feature rows at the sources, each scaled by its source's degree factor, added up by
    destination. -/
def agg1K (h : Vec F S100000x128 .f32) (src dst : Vec F S1600000 .i32) : Vec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (Host.gather gather_S100000x128_S1600000x1_S1600000x128_1_0_n_n_0_1_1128 h (normIdx src))
      (broadcastInDim S1600000x128 ![0, 1] bcast_S1600000x1_S1600000x128_0_1
        (broadcastInDim S1600000x1 ![0] bcast_S1600000_S1600000x1_0
          (Host.gather gather_S100000_S1600000x1_S1600000_n_0_n_n_0_1_1 (invDeg src) (normIdx src)))))

/-- The two degree factors side by side: column 0 the destinations', column 1 the sources'. -/
def dnK (src dst : Vec F S1600000 .i32) : Vec F S100000x2 .f32 :=
  concatenate S100000x2 1
    [⟨S100000x1, broadcastInDim S100000x1 ![0] bcast_S100000_S100000x1_0 (invDeg dst)⟩,
      ⟨S100000x1, broadcastInDim S100000x1 ![0] bcast_S100000_S100000x1_0 (invDeg src)⟩]
    concatenates_S100000x1_S100000x1_S100000x2_d1

/-- The second layer's aggregate: the rows of `x` at the sources, added up by destination. -/
def agg2K (x : Vec F S100000x128 .f32) (src dst : Vec F S1600000 .i32) : Vec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x (normIdx src))

/-- How many nodes each graph has: a one added at every node's graph id, from zero. -/
def cntK (gid : Vec F S100000 .i32) : Vec F S64 .f32 :=
  Host.scatterAdd scatter_S64_S100000x1_S100000_n_0_0_1
    (broadcastInDim S64 ![] bcast_S_S64 (constant S_ .f32 0x00000000#32))
    (broadcastInDim S100000x1 ![0] bcast_S100000_S100000x1_0 gid)
    (broadcastInDim S100000 ![] bcast_S_S100000 (constant S_ .f32 0x3F800000#32))

/-! ## Each line from an arbitrary starting valuation -/

section Lines

variable (W : Valuation τ sig (Elt F))

/-- The first line leaves in `main_v9` where the sources' count is positive. -/
theorem line0_v9 : after (hostOps0 (F := F)) W (Proc.devRef .tc main_v9)
    = cmpf .ogt (degK (W (Proc.devRef .tc main_arg1))) (broadcastInDim S100000 ![] bcast_S_S100000 (constant S_ .f32 0x00000000#32)) := by
  dsimp only [hostOps0]; after_results_simp <;> rfl

/-- The first line leaves in `main_v12` the inverse square root of the sources' count of at least one. -/
theorem line0_v12 : after (hostOps0 (F := F)) W (Proc.devRef .tc main_v12)
    = Host.rsqrt (maximumf (degK (W (Proc.devRef .tc main_arg1))) (broadcastInDim S100000 ![] bcast_S_S100000 (constant S_ .f32 0x3F800000#32))) := by
  dsimp only [hostOps0]; after_results_simp <;> rfl

/-- The first line leaves a zero in `main_cst_4`. -/
theorem line0_cst4 : after (hostOps0 (F := F)) W (Proc.devRef .tc main_cst_4) = constant S_ .f32 0x00000000#32 := by
  dsimp only [hostOps0]; after_results_simp <;> rfl

/-- The first line leaves in `main_v7` the destinations' count. -/
theorem line0_v7 : after (hostOps0 (F := F)) W (Proc.devRef .tc main_v7) = degK (W (Proc.devRef .tc main_arg2)) := by
  dsimp only [hostOps0]; after_results_simp <;> rfl

/-- The first line leaves in `main_v0` the graph ids as a column. -/
theorem line0_v0 : (after (hostOps0 (F := F)) W (Proc.devRef .tc main_v0) : S100000x1.Idx → Elt F .i32)
    = shapeCast S100000x1 (W (Proc.devRef .tc main_arg3)) shapeCasts_S100000_S100000x1 := by
  dsimp only [hostOps0]; after_results_simp <;> rfl

/-- The second line selects: the first line's inverse square root where its count is positive, its zero elsewhere. -/
theorem line1_v13 : after (hostOps0_1 (F := F)) W (Proc.devRef .tc main_v13)
    = select (W (Proc.devRef .tc main_v9)) (W (Proc.devRef .tc main_v12))
        (broadcastInDim S100000 ![] bcast_S_S100000 (id (W (Proc.devRef .tc main_cst_4)))) := by
  dsimp only [hostOps0_1]; after_results_simp <;> rfl

/-- The third line leaves in `main_v15` where the count in `main_v7` is positive. -/
theorem line2_v15 : after (hostOps0_2 (F := F)) W (Proc.devRef .tc main_v15)
    = cmpf .ogt (W (Proc.devRef .tc main_v7)) (broadcastInDim S100000 ![] bcast_S_S100000 (constant S_ .f32 0x00000000#32)) := by
  dsimp only [hostOps0_2]; after_results_simp <;> rfl

/-- The third line leaves in `main_v18` the inverse square root of the count in `main_v7`, of at least one. -/
theorem line2_v18 : after (hostOps0_2 (F := F)) W (Proc.devRef .tc main_v18)
    = Host.rsqrt (maximumf (W (Proc.devRef .tc main_v7)) (broadcastInDim S100000 ![] bcast_S_S100000 (constant S_ .f32 0x3F800000#32))) := by
  dsimp only [hostOps0_2]; after_results_simp <;> rfl

/-- The third line leaves a zero in `main_cst_7`. -/
theorem line2_cst7 : after (hostOps0_2 (F := F)) W (Proc.devRef .tc main_cst_7) = constant S_ .f32 0x00000000#32 := by
  dsimp only [hostOps0_2]; after_results_simp <;> rfl

/-- The fourth line selects: the third line's inverse square root where its count is positive, its zero elsewhere. -/
theorem line3_v19 : after (hostOps0_3 (F := F)) W (Proc.devRef .tc main_v19)
    = select (W (Proc.devRef .tc main_v15)) (W (Proc.devRef .tc main_v18))
        (broadcastInDim S100000 ![] bcast_S_S100000 (id (W (Proc.devRef .tc main_cst_7)))) := by
  dsimp only [hostOps0_3]; after_results_simp <;> rfl

/-- The fifth line leaves in `main_v39` the rows of `main_arg0` at the sources, each scaled by the entry of `main_v13` at
    its source, added up by destination. -/
theorem line4_v39 : after (hostOps0_4 (F := F)) W (Proc.devRef .tc main_v39)
    = Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (W (Proc.devRef .tc main_arg2)))
        (mulf (Host.gather gather_S100000x128_S1600000x1_S1600000x128_1_0_n_n_0_1_1128 (W (Proc.devRef .tc main_arg0))
            (normIdx (W (Proc.devRef .tc main_arg1))))
          (broadcastInDim S1600000x128 ![0, 1] bcast_S1600000x1_S1600000x128_0_1
            (broadcastInDim S1600000x1 ![0] bcast_S1600000_S1600000x1_0
              (Host.gather gather_S100000_S1600000x1_S1600000_n_0_n_n_0_1_1 (W (Proc.devRef .tc main_v13))
                (normIdx (W (Proc.devRef .tc main_arg1))))))) := by
  dsimp only [hostOps0_4]; after_results_simp <;> rfl

set_option maxHeartbeats 8000000 in
/-- The fifth line leaves in `main_v42` the two tables `main_v19` and `main_v13` as the two columns of one. (The columns
    sit inside a list of operands: each operation's result is rewritten in turn.) -/
theorem line4_v42 : after (hostOps0_4 (F := F)) W (Proc.devRef .tc main_v42)
    = concatenate S100000x2 1
        [⟨S100000x1, broadcastInDim S100000x1 ![0] bcast_S100000_S100000x1_0 (W (Proc.devRef .tc main_v19))⟩,
          ⟨S100000x1, broadcastInDim S100000x1 ![0] bcast_S100000_S100000x1_0 (W (Proc.devRef .tc main_v13))⟩]
        concatenates_S100000x1_S100000x1_S100000x2_d1 := by
  dsimp only [hostOps0_4]; after_results <;> rfl

/-- The fifth line leaves in `main_v43` the first bias as a one-row table. -/
theorem line4_v43 : (after (hostOps0_4 (F := F)) W (Proc.devRef .tc main_v43) : S1x128.Idx → Elt F .f32)
    = shapeCast S1x128 (W (Proc.devRef .tc main_arg5)) shapeCasts_S128_S1x128 := by
  dsimp only [hostOps0_4]; after_results_simp <;> rfl

/-- The line between the regions leaves in `main_v54` the rows of `main_v44` at the sources, added up by destination. -/
theorem line5_v54 : after (hostOps1 (F := F)) W (Proc.devRef .tc main_v54)
    = agg2K (W (Proc.devRef .tc main_v44)) (W (Proc.devRef .tc main_arg1)) (W (Proc.devRef .tc main_arg2)) := by
  dsimp only [hostOps1]; after_results_simp <;> rfl

/-- The line between the regions leaves in `main_v59` the graphs' node counts as a column. -/
theorem line5_v59 : (after (hostOps1 (F := F)) W (Proc.devRef .tc main_v59) : S64x1.Idx → Elt F .f32)
    = shapeCast S64x1 (cntK (W (Proc.devRef .tc main_arg3))) shapeCasts_S64_S64x1 := by
  dsimp only [hostOps1]; after_results_simp <;> rfl

/-- The line between the regions leaves in `main_v60` the table `main_v19` as a column. -/
theorem line5_v60 : (after (hostOps1 (F := F)) W (Proc.devRef .tc main_v60) : S100000x1.Idx → Elt F .f32)
    = shapeCast S100000x1 (W (Proc.devRef .tc main_v19)) shapeCasts_S100000_S100000x1 := by
  dsimp only [hostOps1]; after_results_simp <;> rfl

/-- The line between the regions leaves in `main_v61` the second bias as a one-row table. -/
theorem line5_v61 : (after (hostOps1 (F := F)) W (Proc.devRef .tc main_v61) : S1x128.Idx → Elt F .f32)
    = shapeCast S1x128 (W (Proc.devRef .tc main_arg7)) shapeCasts_S128_S1x128 := by
  dsimp only [hostOps1]; after_results_simp <;> rfl

/-- The line between the regions leaves in `main_v62` the head's bias as a one-row table. -/
theorem line5_v62 : (after (hostOps1 (F := F)) W (Proc.devRef .tc main_v62) : S1x10.Idx → Elt F .f32)
    = shapeCast S1x10 (W (Proc.devRef .tc main_arg9)) shapeCasts_S10_S1x10 := by
  dsimp only [hostOps1]; after_results_simp <;> rfl

end Lines

/-! ## The lines chained from the launch contents -/

section Chain

variable (m : (ℓ : Loc nD τ sig) → Buf (Elt F) ℓ) (outs : Outs (F := F)) (c : Dev nD)

/-- A buffer none of the first four lines writes is at its launch contents before the fifth. -/
theorem v4_launch (r : Ref sig .tc) (h0 : r ∉ hostOps0_W) (h1 : r ∉ hostOps0_1_W) (h2 : r ∉ hostOps0_2_W)
    (h3 : r ∉ hostOps0_3_W) : V4 m c r = m ((c.tc : Thread nD τ).loc r) :=
  (V4_of m c r h3).trans <| (V3_of m c r h2).trans <| (V2_of m c r h1).trans <| (V1_of m c r h0).trans rfl

/-- A buffer no line before the second region writes, other than the first region's output, is at its launch contents
    before the last line. -/
theorem v6_launch (r : Ref sig .tc) (h0 : r ∉ hostOps0_W) (h1 : r ∉ hostOps0_1_W) (h2 : r ∉ hostOps0_2_W)
    (h3 : r ∉ hostOps0_3_W) (h4 : r ∉ hostOps0_4_W) (h5 : r ∉ ([main_v44] : List (Ref sig .tc))) :
    V6 m outs c r = m ((c.tc : Thread nD τ).loc r) :=
  (V6_of m outs c r h5).trans <| (V5_of m c r h4).trans (v4_launch m c r h0 h1 h2 h3)

/-! ### After the first line -/

theorem v1_v9 : V1 m c main_v9 = cmpf .ogt (degK (m ((c.tc : Thread nD τ).loc main_arg1)))
    (broadcastInDim S100000 ![] bcast_S_S100000 (constant S_ .f32 0x00000000#32)) := line0_v9 (V0 m c)
theorem v1_v12 : V1 m c main_v12 = Host.rsqrt (maximumf (degK (m ((c.tc : Thread nD τ).loc main_arg1)))
    (broadcastInDim S100000 ![] bcast_S_S100000 (constant S_ .f32 0x3F800000#32))) := line0_v12 (V0 m c)
theorem v1_cst4 : V1 m c main_cst_4 = constant S_ .f32 0x00000000#32 := line0_cst4 (V0 m c)
theorem v1_v7 : V1 m c main_v7 = degK (m ((c.tc : Thread nD τ).loc main_arg2)) := line0_v7 (V0 m c)
theorem v1_v0 : (V1 m c main_v0 : S100000x1.Idx → Elt F .i32)
    = shapeCast S100000x1 (m ((c.tc : Thread nD τ).loc main_arg3)) shapeCasts_S100000_S100000x1 := line0_v0 (V0 m c)

/-! ### The two degree factors -/

/-- After the second line `main_v13` holds the sources' degree factor. -/
theorem v2_v13 : V2 m c main_v13 = invDeg (m ((c.tc : Thread nD τ).loc main_arg1)) := by
  refine (line1_v13 (V1 m c)).trans ?_
  rw [v1_v9, v1_v12, v1_cst4]
  rfl

/-- It is still there before the fifth line: the third and fourth lines do not write it. -/
theorem v4_v13 : V4 m c main_v13 = invDeg (m ((c.tc : Thread nD τ).loc main_arg1)) :=
  (V4_of m c main_v13 (by decide)).trans <| (V3_of m c main_v13 (by decide)).trans (v2_v13 m c)

/-- The destinations' count is carried across the second line. -/
theorem v2_v7 : V2 m c main_v7 = degK (m ((c.tc : Thread nD τ).loc main_arg2)) :=
  (V2_of m c main_v7 (by decide)).trans (v1_v7 m c)

theorem v3_v15 : V3 m c main_v15 = cmpf .ogt (degK (m ((c.tc : Thread nD τ).loc main_arg2)))
    (broadcastInDim S100000 ![] bcast_S_S100000 (constant S_ .f32 0x00000000#32)) := by
  refine (line2_v15 (V2 m c)).trans ?_
  rw [v2_v7]
theorem v3_v18 : V3 m c main_v18 = Host.rsqrt (maximumf (degK (m ((c.tc : Thread nD τ).loc main_arg2)))
    (broadcastInDim S100000 ![] bcast_S_S100000 (constant S_ .f32 0x3F800000#32))) := by
  refine (line2_v18 (V2 m c)).trans ?_
  rw [v2_v7]
theorem v3_cst7 : V3 m c main_cst_7 = constant S_ .f32 0x00000000#32 := line2_cst7 (V2 m c)

/-- After the fourth line `main_v19` holds the destinations' degree factor. -/
theorem v4_v19 : V4 m c main_v19 = invDeg (m ((c.tc : Thread nD τ).loc main_arg2)) := by
  refine (line3_v19 (V3 m c)).trans ?_
  rw [v3_v15, v3_v18, v3_cst7]
  rfl

/-! ### Before the first region -/

/-- `main_v39` before the first region: the first layer's aggregate. -/
theorem v5_v39 : V5 m c main_v39 = agg1K (m ((c.tc : Thread nD τ).loc main_arg0)) (m ((c.tc : Thread nD τ).loc main_arg1))
    (m ((c.tc : Thread nD τ).loc main_arg2)) := by
  refine (line4_v39 (V4 m c)).trans ?_
  rw [v4_launch m c main_arg0 (by decide) (by decide) (by decide) (by decide),
    v4_launch m c main_arg1 (by decide) (by decide) (by decide) (by decide),
    v4_launch m c main_arg2 (by decide) (by decide) (by decide) (by decide), v4_v13]
  rfl

/-- `main_v42` before the first region: the two degree factors side by side. -/
theorem v5_v42 : V5 m c main_v42 = dnK (m ((c.tc : Thread nD τ).loc main_arg1)) (m ((c.tc : Thread nD τ).loc main_arg2)) := by
  refine (line4_v42 (V4 m c)).trans ?_
  rw [v4_v19, v4_v13]
  rfl

/-- `main_v43` before the first region: the first bias as a one-row table. -/
theorem v5_v43 : (V5 m c main_v43 : S1x128.Idx → Elt F .f32)
    = shapeCast S1x128 (m ((c.tc : Thread nD τ).loc main_arg5)) shapeCasts_S128_S1x128 := by
  refine (line4_v43 (V4 m c)).trans ?_
  rw [v4_launch m c main_arg5 (by decide) (by decide) (by decide) (by decide)]

/-- `main_arg4` before the first region: as launched. -/
theorem v5_arg4 : V5 m c main_arg4 = m ((c.tc : Thread nD τ).loc main_arg4) :=
  (V5_of m c main_arg4 (by decide)).trans (v4_launch m c main_arg4 (by decide) (by decide) (by decide) (by decide))

/-! ### Before the second region -/

/-- After the first region `main_v44` holds what the region left there. -/
theorem v6_v44 : V6 m outs c main_v44 = outs 6 main_v44 c := by
  simp only [V6, Function.update_self]

/-- The destinations' degree factor is carried to the last line. -/
theorem v6_v19 : V6 m outs c main_v19 = invDeg (m ((c.tc : Thread nD τ).loc main_arg2)) :=
  (V6_of m outs c main_v19 (by decide)).trans <| (V5_of m c main_v19 (by decide)).trans (v4_v19 m c)

/-- `main_v54` before the second region: the second layer's aggregate of what the first region left. -/
theorem v7_v54 : V7 m outs c main_v54 = agg2K (outs 6 main_v44 c) (m ((c.tc : Thread nD τ).loc main_arg1))
    (m ((c.tc : Thread nD τ).loc main_arg2)) := by
  refine (line5_v54 (V6 m outs c)).trans ?_
  rw [v6_v44, v6_launch m outs c main_arg1 (by decide) (by decide) (by decide) (by decide) (by decide) (by decide),
    v6_launch m outs c main_arg2 (by decide) (by decide) (by decide) (by decide) (by decide) (by decide)]

/-- `main_v60` before the second region: the destinations' degree factor as a column. -/
theorem v7_v60 : (V7 m outs c main_v60 : S100000x1.Idx → Elt F .f32)
    = shapeCast S100000x1 (invDeg (m ((c.tc : Thread nD τ).loc main_arg2))) shapeCasts_S100000_S100000x1 := by
  refine (line5_v60 (V6 m outs c)).trans ?_
  rw [v6_v19]

/-- `main_v0` before the second region: the graph ids as a column, as the first line left them. -/
theorem v7_v0 : (V7 m outs c main_v0 : S100000x1.Idx → Elt F .i32)
    = shapeCast S100000x1 (m ((c.tc : Thread nD τ).loc main_arg3)) shapeCasts_S100000_S100000x1 :=
  (V7_of m outs c main_v0 (by decide)).trans <| (V6_of m outs c main_v0 (by decide)).trans <|
    (V5_of m c main_v0 (by decide)).trans <| (V4_of m c main_v0 (by decide)).trans <|
    (V3_of m c main_v0 (by decide)).trans <| (V2_of m c main_v0 (by decide)).trans (v1_v0 m c)

/-- `main_v59` before the second region: the graphs' node counts as a column. -/
theorem v7_v59 : (V7 m outs c main_v59 : S64x1.Idx → Elt F .f32)
    = shapeCast S64x1 (cntK (m ((c.tc : Thread nD τ).loc main_arg3))) shapeCasts_S64_S64x1 := by
  refine (line5_v59 (V6 m outs c)).trans ?_
  rw [v6_launch m outs c main_arg3 (by decide) (by decide) (by decide) (by decide) (by decide) (by decide)]

/-- `main_v61` before the second region: the second bias as a one-row table. -/
theorem v7_v61 : (V7 m outs c main_v61 : S1x128.Idx → Elt F .f32)
    = shapeCast S1x128 (m ((c.tc : Thread nD τ).loc main_arg7)) shapeCasts_S128_S1x128 := by
  refine (line5_v61 (V6 m outs c)).trans ?_
  rw [v6_launch m outs c main_arg7 (by decide) (by decide) (by decide) (by decide) (by decide) (by decide)]

/-- `main_v62` before the second region: the head's bias as a one-row table. -/
theorem v7_v62 : (V7 m outs c main_v62 : S1x10.Idx → Elt F .f32)
    = shapeCast S1x10 (m ((c.tc : Thread nD τ).loc main_arg9)) shapeCasts_S10_S1x10 := by
  refine (line5_v62 (V6 m outs c)).trans ?_
  rw [v6_launch m outs c main_arg9 (by decide) (by decide) (by decide) (by decide) (by decide) (by decide)]

/-- `main_arg6` before the second region: as launched. -/
theorem v7_arg6 : V7 m outs c main_arg6 = m ((c.tc : Thread nD τ).loc main_arg6) :=
  (V7_of m outs c main_arg6 (by decide)).trans
    (v6_launch m outs c main_arg6 (by decide) (by decide) (by decide) (by decide) (by decide) (by decide))

/-- `main_arg8` before the second region: as launched. -/
theorem v7_arg8 : V7 m outs c main_arg8 = m ((c.tc : Thread nD τ).loc main_arg8) :=
  (V7_of m outs c main_arg8 (by decide)).trans
    (v6_launch m outs c main_arg8 (by decide) (by decide) (by decide) (by decide) (by decide) (by decide))

end Chain

end Cert.KernelIdeal.Hand

end
-- ==== Proof.KernelValue.lean ====
/-
  THE VALUE of the idealized kernel program's result, as one function of the argument arrays: region 1's result array is
  the pooled head (Spec.head) of the second aggregation, which the last host stretch forms from region 0's result
  array; region 0's result array is the first layer's stored rows (Spec.h1s) of the first aggregation. The operands are
  what the host stretches leave in the buffers the regions read.
-/
import proofs.«428050_j45861660787100_2_alg».proof.Proof.KIRun
import proofs.«428050_j45861660787100_2_alg».proof.Proof.KIVal0
import proofs.«428050_j45861660787100_2_alg».proof.Proof.KIVal1
import proofs.«428050_j45861660787100_2_alg».proof.Proof.KIHost

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- Region 0's result array: the first layer's stored rows of the first aggregation, the two columns of degree
    factors, the first weights and the first bias as a row. -/
theorem Y0_eq :
    Y0 m c = Cert.Spec.h1s
      (agg1K (m ((c.tc : Thread nD τ).loc main_arg0)) (m ((c.tc : Thread nD τ).loc main_arg1)) (m ((c.tc : Thread nD τ).loc main_arg2)))
      (dnK (m ((c.tc : Thread nD τ).loc main_arg1)) (m ((c.tc : Thread nD τ).loc main_arg2)))
      (m ((c.tc : Thread nD τ).loc main_arg4))
      (shapeCast S1x128 (m ((c.tc : Thread nD τ).loc main_arg5)) shapeCasts_S128_S1x128) := by
  unfold Y0
  rw [arr0_4]
  show Cert.Spec.h1s (Gen.V5 m c main_v39) (Gen.V5 m c main_v42) (Gen.V5 m c main_arg4) (Gen.V5 m c main_v43) = _
  rw [v5_v39, v5_v42, v5_arg4, v5_v43]

/-- Region 1's result array: the pooled head of the second aggregation (formed from region 0's result array), the
    in-degree factors as a column, the graph numbers as a column, the graphs' node counts as a column, the second
    weights and bias, the classifier's weights and bias. -/
theorem Y1_eq :
    Y1 m c = Cert.Spec.head
      (agg2K (Y0 m c) (m ((c.tc : Thread nD τ).loc main_arg1)) (m ((c.tc : Thread nD τ).loc main_arg2)))
      (shapeCast S100000x1 (invDeg (m ((c.tc : Thread nD τ).loc main_arg2))) shapeCasts_S100000_S100000x1)
      (shapeCast S100000x1 (m ((c.tc : Thread nD τ).loc main_arg3)) shapeCasts_S100000_S100000x1)
      (shapeCast S64x1 (cntK (m ((c.tc : Thread nD τ).loc main_arg3))) shapeCasts_S64_S64x1)
      (m ((c.tc : Thread nD τ).loc main_arg6))
      (shapeCast S1x128 (m ((c.tc : Thread nD τ).loc main_arg7)) shapeCasts_S128_S1x128)
      (m ((c.tc : Thread nD τ).loc main_arg8))
      (shapeCast S1x10 (m ((c.tc : Thread nD τ).loc main_arg9)) shapeCasts_S10_S1x10) := by
  unfold Y1
  rw [arr1_8]
  show Cert.Spec.head (Wv1 m c main_v54) (Wv1 m c main_v60) (Wv1 m c main_v0) (Wv1 m c main_v59) (Wv1 m c main_arg6)
    (Wv1 m c main_v61) (Wv1 m c main_arg8) (Wv1 m c main_v62) = _
  rw [← V7_eq m c, v7_v54, v7_v60, v7_v0, v7_v59, v7_arg6, v7_v61, v7_arg8, v7_v62, outs_v44]

end Cert.KernelIdeal.Hand

end
-- ==== Proof.KIHostIdx.lean ====
/-
  THE HOST-MADE OPERANDS READ AT AN INDEX.

  The operands the host lines prepare for the two regions are layout changes of vectors: a vector laid out as a column
  (`[n] → [n, 1]`), a vector laid out as a one-row table (`[n] → [1, n]`), and two columns set side by side
  (`[n, 1], [n, 1] → [n, 2]`). Read at an index each is an entry of the vector it was made from: a column at `(r, 0)`
  is the vector at `r`; a one-row table at `(0, j)` is the vector at `j`; the table of two columns at `(r, 0)` is the
  first column's vector at `r` and at `(r, 1)` the second's. A reshape keeps the row-major position, which for a column
  is `r · 1 + 0` and for a one-row table `0 · n + j`. The unit axis's coordinate is stated as any element of the
  one-element range, so that a statement applies whichever way its zero is written.
-/
import proofs.«428050_j45861660787100_2_alg».proof.Proof.KIHost
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-! ## The three layouts, for any sizes and any entries -/

section General

variable {α : Type}

/-- A vector reshaped to a column, read at `(r, 0)`: the vector at `r`. -/
theorem col_apply {n : Nat} (h : (⟨1, ![n]⟩ : Shape).ShapeCasts ⟨2, ![n, 1]⟩) (v : (⟨1, ![n]⟩ : Shape).Idx → α)
    (r : Fin n) (z : Fin 1) : shapeCast ⟨2, ![n, 1]⟩ v h (ix2 r z) = v (ix1 r) :=
  shapeCast_apply v h (ix2 r z) (ix1 r) (by
    rw [Shape.rowMajor_val_one, Shape.rowMajor_val_two]
    show r.val = r.val * 1 + z.val
    have := z.isLt
    omega)

/-- A vector reshaped to a one-row table, read at `(0, j)`: the vector at `j`. -/
theorem row_apply {n : Nat} (h : (⟨1, ![n]⟩ : Shape).ShapeCasts ⟨2, ![1, n]⟩) (b : (⟨1, ![n]⟩ : Shape).Idx → α)
    (z : Fin 1) (j : Fin n) : shapeCast ⟨2, ![1, n]⟩ b h (ix2 z j) = b (ix1 j) :=
  shapeCast_apply b h (ix2 z j) (ix1 j) (by
    rw [Shape.rowMajor_val_one, Shape.rowMajor_val_two]
    show j.val = z.val * n + j.val
    have hz : z.val = 0 := by have := z.isLt; omega
    rw [hz]
    omega)

/-- A vector broadcast to a column, read at `(r, 0)`: the vector at `r`. -/
theorem bcast_col_apply {n : Nat} (h : (⟨1, ![n]⟩ : Shape).BroadcastsInDim ⟨2, ![n, 1]⟩ ![0])
    (v : (⟨1, ![n]⟩ : Shape).Idx → α) (r : Fin n) (z : Fin 1) :
    broadcastInDim ⟨2, ![n, 1]⟩ ![0] h v (ix2 r z) = v (ix1 r) :=
  broadcastInDim_apply ![0] h v (ix2 r z) (ix1 r) (fun a => by
    match a with
    | ⟨0, _⟩ =>
      show r.val = if n = 1 then 0 else r.val
      have := r.isLt
      split_ifs with h1
      · omega
      · rfl)

/-- Two columns side by side, read in column `0`: the first column at the same row. -/
theorem pair_col0_apply {n : Nat} (h : Shape.Concatenates [(⟨2, ![n, 1]⟩ : Shape), ⟨2, ![n, 1]⟩] ⟨2, ![n, 2]⟩ 1)
    (x₁ x₂ : (⟨2, ![n, 1]⟩ : Shape).Idx → α) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- Two columns side by side, read in column `1`: the second column at the same row (its own column `1 − 1`). -/
theorem pair_col1_apply {n : Nat} (h : Shape.Concatenates [(⟨2, ![n, 1]⟩ : Shape), ⟨2, ![n, 1]⟩] ⟨2, ![n, 2]⟩ 1)
    (x₁ x₂ : (⟨2, ![n, 1]⟩ : Shape).Idx → α) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b, hb with
    | ⟨0, _⟩, _ => rfl
    | ⟨1, _⟩, hb => exact absurd rfl hb) rfl

end General

/-! ## This program's operands -/

section Operands

variable {F : FTy → Type} [FloatOps F] {α : Type}

/-- The two degree factors side by side, column `0`: the destinations' factor. -/
theorem dnK_col0 (src dst : Vec F S1600000 .i32) (n : Fin 100000) :
    dnK src dst (ix2 n (0 : Fin 2)) = invDeg dst (ix1 n) := by
  unfold dnK
  rw [pair_col0_apply, bcast_col_apply]

/-- The two degree factors side by side, column `1`: the sources' factor. -/
theorem dnK_col1 (src dst : Vec F S1600000 .i32) (n : Fin 100000) :
    dnK src dst (ix2 n (1 : Fin 2)) = invDeg src (ix1 n) := by
  unfold dnK
  rw [pair_col1_apply, bcast_col_apply]

/-- A vector over the nodes as a column (a degree factor, or the graph ids), read at `(n, 0)`. -/
theorem col_nodes_apply (v : S100000.Idx → α) (n : Fin 100000) (z : Fin 1) :
    shapeCast S100000x1 v shapeCasts_S100000_S100000x1 (ix2 n z) = v (ix1 n) :=
  col_apply shapeCasts_S100000_S100000x1 v n z

/-- A vector over the graphs as a column (the node counts), read at `(g, 0)`. -/
theorem col_graphs_apply (v : S64.Idx → α) (g : Fin 64) (z : Fin 1) :
    shapeCast S64x1 v shapeCasts_S64_S64x1 (ix2 g z) = v (ix1 g) :=
  col_apply shapeCasts_S64_S64x1 v g z

/-- A vector over the features as a one-row table (a layer's bias), read at `(0, j)`. -/
theorem row_feats_apply (b : S128.Idx → α) (z : Fin 1) (j : Fin 128) :
    shapeCast S1x128 b shapeCasts_S128_S1x128 (ix2 z j) = b (ix1 j) :=
  row_apply shapeCasts_S128_S1x128 b z j

/-- A vector over the classes as a one-row table (the head's bias), read at `(0, k)`. -/
theorem row_classes_apply (b : S10.Idx → α) (z : Fin 1) (k : Fin 10) :
    shapeCast S1x10 b shapeCasts_S10_S1x10 (ix2 z k) = b (ix1 k) :=
  row_apply shapeCasts_S10_S1x10 b z k

end Operands

end Cert.KernelIdeal.Hand

end
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.RefVal.lean ====
/-
  THE REFERENCE'S RESULT, ARRANGED AS THE TWO DENSE PIECES OF THE NETWORK.

  The reference computes, on whole arrays: the degree factors of the two lists of edge ends; for each layer the rows
  scaled by the out-degree factor, gathered at the sources and added up at the destinations (the aggregated rows), then
  scaled by the in-degree factor, multiplied by the weights, shifted by the bias and clamped at zero; the second
  layer's rows added up per graph, divided by the larger of the graph's node count and one, and sent through the
  classifier. The gathers and the two large sums over edges are left as the stages they are (both programs form them
  by the same operations); what is opened here is everything between them, read at one index:

  * a layer's clamped rows at node n, feature j: max (sum over k of (agg[n,k] * s[n]) * W[k,j] + b[j]) 0, the matrix
    product being the sum over the one contracted axis, and each broadcast read at the index it copies from;
  * the rows handed to the second layer's gather: the first layer's clamped rows times the out-degree factor;
  * the pooled rows at graph g, feature j: a table of zeros plus the sum, over the nodes whose graph number read as a
    signed integer is g, of the second layer's clamped row of that node at j (a node whose number is outside 0..63 adds
    to no graph); zero plus a sum is the sum;
  * the result at (g, c): the sum over j of (pooled[g,j] / max (count[g]) 1) * Wc[j,c], plus bc[c].

  The factor, graph-number and count columns and the bias rows enter the two pieces only through their entries at
  (n, 0), (g, 0), (0, j); the statements are therefore made for any tables with those entries, and then for the
  columns and rows built from the one-axis stages.
-/
import proofs.«428050_j45861660787100_2_alg».proof.Proof.RefSide
import proofs.«428050_j45861660787100_2_alg».proof.Proof.Spec
import proofs.«428050_j45861660787100_2_alg».proof.Proof.LibRowOps

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx

variable (x0 : (⟨S100000x128, .f32⟩ : BufTy).Contents (Elt Ideal))
  (x1 x2 : (⟨S1600000, .i32⟩ : BufTy).Contents (Elt Ideal))
  (x3 : (⟨S100000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x10, .f32⟩ : BufTy).Contents (Elt Ideal)) (x9 : (⟨S10, .f32⟩ : BufTy).Contents (Elt Ideal))

/-! ## The degree factors, each formed twice

Each layer's call forms the factor of the sources and the factor of the destinations anew from the same list of edge
ends by the same operations, so the second layer's copies are the first layer's terms. -/

/-- The in-degree factors of the second layer are those of the first. -/
theorem invIn_copy : val_main_v71 (F := Ideal) x2 = val_main_v31 (F := Ideal) x2 := rfl

/-- The out-degree factors that scale the first layer's rows (formed in the second layer's call) are those that
    scaled the input rows. -/
theorem invOut_copy : val_main_v52 (F := Ideal) x1 = val_main_v12 (F := Ideal) x1 := rfl

/-! ## The first layer -/

/-- The first layer's clamped rows at node `i 0`, feature `i 1`: the dense step of the aggregated rows with the
    in-degree factors, the first weights and the first bias. The matrix product is the sum over the contracted axis;
    the factor is read at the node, the bias at the feature. -/
theorem relu1_apply (i : S100000x128.Idx) :
    val_main_v39 (F := Ideal) x0 x1 x2 x4 x5 i
      = Cert.Spec.dense (val_main_v25 (F := Ideal) x0 x1 x2) (fun n => val_main_v31 (F := Ideal) x2 (ix1 n)) x4
          (fun j => x5 (ix1 j)) (i 0) (i 1) := by
  have e1 : ∀ k : Fin 128, lidx_main_v35 i k = ix2 (i 0) k := fun k => funext fun a => Fin.ext (by
    match a with
    | ⟨0, _⟩ => rfl
    | ⟨1, _⟩ => rfl)
  have e2 : ∀ k : Fin 128, ridx_main_v35 i k = ix2 k (i 1) := fun k => funext fun a => Fin.ext (by
    match a with
    | ⟨0, _⟩ => rfl
    | ⟨1, _⟩ => rfl)
  have e3 : ∀ k : Fin 128, idx_main_v32 (idx_main_v33 (ix2 (i 0) k)) = ix1 (i 0) := fun k => funext fun a => Fin.ext (by
    match a with
    | ⟨0, _⟩ => rfl)
  have e4 : idx_main_v36 (idx_main_v37 i) = ix1 (i 1) := funext fun a => Fin.ext (by
    match a with
    | ⟨0, _⟩ => rfl)
  rw [val_main_v39_apply, val_main_v38_apply, val_main_v35_apply, val_main_v37_apply, val_main_v36_apply,
    val_main_call2_v0_apply, val_main_call2_cst_apply, Ideal.maximumf_def, Ideal.addf_def, Ideal.ofBits_def]
  unfold Cert.Spec.dense
  refine congrArg₂ max (congrArg₂ (· + ·) (Finset.sum_congr rfl fun k _ => ?_) (congrArg x5 e4)) rfl
  rw [val_main_v34_apply, val_main_v33_apply, val_main_v32_apply, Ideal.mulf_def, e1 k, e2 k, e3 k]
  rfl

/-- THE ROWS HANDED TO THE SECOND LAYER'S GATHER: the first layer's clamped rows times the out-degree factor of the
    node; for any two-column table whose column 0 holds the in-degree factors and column 1 the out-degree factors,
    and any row holding the first bias. -/
theorem ref_layer1_of (dn : Cert.Spec.SNx2.Idx → EReal) (b1r : Cert.Spec.S1xD.Idx → EReal)
    (h0 : ∀ n : Fin 100000, dn (ix2 n 0) = val_main_v31 (F := Ideal) x2 (ix1 n))
    (h1 : ∀ n : Fin 100000, dn (ix2 n 1) = val_main_v52 (F := Ideal) x1 (ix1 n))
    (hb : ∀ j : Fin 128, b1r (ix2 0 j) = x5 (ix1 j)) :
    val_main_v55 (F := Ideal) x0 x1 x2 x4 x5
      = Cert.Spec.h1s (val_main_v25 (F := Ideal) x0 x1 x2) dn x4 b1r := by
  funext i
  have e5 : idx_main_v53 (idx_main_v54 i) = ix1 (i 0) := funext fun a => Fin.ext (by
    match a with
    | ⟨0, _⟩ => rfl)
  rw [val_main_v55_apply, relu1_apply, val_main_v54_apply, val_main_v53_apply, e5, Ideal.mulf_def]
  unfold Cert.Spec.h1s
  refine congrArg₂ (· * ·) ?_ (h1 (i 0)).symm
  simp only [h0, hb]

/-- The two-column table of factors built from the two one-axis stages: column 0 the in-degree factors, every other
    column the out-degree factors. -/
def dnRef : Cert.Spec.SNx2.Idx → EReal := fun i =>
  match (i 1 : Fin 2) with
  | ⟨0, _⟩ => val_main_v31 (F := Ideal) x2 (ix1 (i 0))
  | ⟨_ + 1, _⟩ => val_main_v52 (F := Ideal) x1 (ix1 (i 0))

theorem dnRef_col0 (n : Fin 100000) : dnRef x1 x2 (ix2 n 0) = val_main_v31 (F := Ideal) x2 (ix1 n) := rfl
theorem dnRef_col1 (n : Fin 100000) : dnRef x1 x2 (ix2 n 1) = val_main_v52 (F := Ideal) x1 (ix1 n) := rfl

/-- The rows handed to the second layer's gather, with the table `dnRef` and the bias as the row it is broadcast to. -/
theorem ref_layer1 :
    val_main_v55 (F := Ideal) x0 x1 x2 x4 x5
      = Cert.Spec.h1s (val_main_v25 (F := Ideal) x0 x1 x2) (dnRef x1 x2) x4 (fun i => x5 (ix1 (i 1))) :=
  ref_layer1_of x0 x1 x2 x4 x5 (dnRef x1 x2) (fun i => x5 (ix1 (i 1))) (dnRef_col0 x1 x2) (dnRef_col1 x1 x2)
    (fun _ => rfl)

/-! ## The second layer, the pooling and the classifier -/

/-- The second layer's clamped rows at node `i 0`, feature `i 1`. -/
theorem relu2_apply (i : S100000x128.Idx) :
    val_main_v79 (F := Ideal) x0 x1 x2 x4 x5 x6 x7 i
      = Cert.Spec.dense (val_main_v65 (F := Ideal) x0 x1 x2 x4 x5) (fun n => val_main_v71 (F := Ideal) x2 (ix1 n)) x6
          (fun j => x7 (ix1 j)) (i 0) (i 1) := by
  have e1 : ∀ k : Fin 128, lidx_main_v75 i k = ix2 (i 0) k := fun k => funext fun a => Fin.ext (by
    match a with
    | ⟨0, _⟩ => rfl
    | ⟨1, _⟩ => rfl)
  have e2 : ∀ k : Fin 128, ridx_main_v75 i k = ix2 k (i 1) := fun k => funext fun a => Fin.ext (by
    match a with
    | ⟨0, _⟩ => rfl
    | ⟨1, _⟩ => rfl)
  have e3 : ∀ k : Fin 128, idx_main_v72 (idx_main_v73 (ix2 (i 0) k)) = ix1 (i 0) := fun k => funext fun a => Fin.ext (by
    match a with
    | ⟨0, _⟩ => rfl)
  have e4 : idx_main_v76 (idx_main_v77 i) = ix1 (i 1) := funext fun a => Fin.ext (by
    match a with
    | ⟨0, _⟩ => rfl)
  rw [val_main_v79_apply, val_main_v78_apply, val_main_v75_apply, val_main_v77_apply, val_main_v76_apply,
    val_main_call5_v0_apply, val_main_call5_cst_apply, Ideal.maximumf_def, Ideal.addf_def, Ideal.ofBits_def]
  unfold Cert.Spec.dense
  refine congrArg₂ max (congrArg₂ (· + ·) (Finset.sum_congr rfl fun k _ => ?_) (congrArg x7 e4)) rfl
  rw [val_main_v74_apply, val_main_v73_apply, val_main_v72_apply, Ideal.mulf_def, e1 k, e2 k, e3 k]
  rfl

/-- The same at a node and a feature given separately. -/
theorem relu2_ix2 (n : Fin 100000) (j : Fin 128) :
    val_main_v79 (F := Ideal) x0 x1 x2 x4 x5 x6 x7 (ix2 n j)
      = Cert.Spec.dense (val_main_v65 (F := Ideal) x0 x1 x2 x4 x5) (fun n => val_main_v71 (F := Ideal) x2 (ix1 n)) x6
          (fun j => x7 (ix1 j)) n j :=
  relu2_apply x0 x1 x2 x4 x5 x6 x7 (ix2 n j)

/-- THE POOLED ROWS at graph `g`, feature `j`: a table of zeros plus the sum, over the nodes whose graph number read
    signed is `g`, of the second layer's clamped rows at `j`; zero plus the sum is the sum. For any factor column,
    graph-number column and bias row with the stages' entries. -/
theorem pool_ix2_of (s : Cert.Spec.SNx1.Idx → EReal) (gid : Cert.Spec.SNx1.Idx → BitVec 32)
    (b2r : Cert.Spec.S1xD.Idx → EReal)
    (hs : ∀ n : Fin 100000, s (ix2 n 0) = val_main_v71 (F := Ideal) x2 (ix1 n))
    (hg : ∀ n : Fin 100000, gid (ix2 n ⟨0, Nat.one_pos⟩) = x3 (ix1 n))
    (hb : ∀ j : Fin 128, b2r (ix2 0 j) = x7 (ix1 j)) (g : Fin 64) (j : Fin 128) :
    val_main_v82 (F := Ideal) x0 x1 x2 x3 x4 x5 x6 x7 (ix2 g j)
      = Cert.Spec.pooled (val_main_v65 (F := Ideal) x0 x1 x2 x4 x5) s gid x6 b2r g j := by
  have eg : ∀ n : Fin 100000, val_main_v81 (F := Ideal) x3 (ix2 n ⟨0, Nat.one_pos⟩) = x3 (ix1 n) := fun n => by
    rw [val_main_v81_apply]
    exact congrArg x3 (funext fun a => Fin.ext (by
    match a with
    | ⟨0, _⟩ => rfl))
  unfold val_main_v82 Host.scatterAdd
  rw [Ideal.hostScatterAdd_def,
    Cert.LibRowOps.rowScatterAdd_apply_of (N := 64) (E := 100000) (D := 128)
      (wf := scatter_S64x128_S100000x1_S100000x128_1_0_0_1_wf) scatter_S64x128_S100000x1_S100000x128_1_0_0_1 rfl,
    val_main_v80_apply, val_main_cst_22_apply, Ideal.ofBits_def, Ideal.ofBits_zero_f32, zero_add]
  unfold Cert.Spec.pooled
  refine Finset.sum_congr (Finset.filter_congr fun n _ => by rw [eg, hg]) fun n _ => ?_
  rw [show (ix2 g j : S64x128.Idx) 1 = j from rfl, relu2_ix2]
  simp only [hs, hb]

/-- THE RESULT at graph `i 0`, class `i 1`: the sum over the features of the pooled entry divided by the larger of the
    graph's count and one, times the classifier's weight, plus the classifier's bias; for any columns and rows with
    the stages' entries. -/
theorem ref_result_of (s : Cert.Spec.SNx1.Idx → EReal) (gid : Cert.Spec.SNx1.Idx → BitVec 32)
    (cnt : Cert.Spec.SGx1.Idx → EReal) (b2r : Cert.Spec.S1xD.Idx → EReal) (bcr : Cert.Spec.S1xC.Idx → EReal)
    (hs : ∀ n : Fin 100000, s (ix2 n 0) = val_main_v71 (F := Ideal) x2 (ix1 n))
    (hg : ∀ n : Fin 100000, gid (ix2 n ⟨0, Nat.one_pos⟩) = x3 (ix1 n))
    (hc : ∀ g : Fin 64, cnt (ix2 g 0) = val_main_v86 (F := Ideal) x3 (ix1 g))
    (hb : ∀ j : Fin 128, b2r (ix2 0 j) = x7 (ix1 j))
    (hbc : ∀ j : Fin 10, bcr (ix2 0 j) = x9 (ix1 j)) :
    val_main_v95 (F := Ideal) x0 x1 x2 x3 x4 x5 x6 x7 x8 x9
      = Cert.Spec.head (val_main_v65 (F := Ideal) x0 x1 x2 x4 x5) s gid cnt x6 b2r x8 bcr := by
  funext i
  have e1 : ∀ k : Fin 128, lidx_main_v92 i k = ix2 (i 0) k := fun k => funext fun a => Fin.ext (by
    match a with
    | ⟨0, _⟩ => rfl
    | ⟨1, _⟩ => rfl)
  have e2 : ∀ k : Fin 128, ridx_main_v92 i k = ix2 k (i 1) := fun k => funext fun a => Fin.ext (by
    match a with
    | ⟨0, _⟩ => rfl
    | ⟨1, _⟩ => rfl)
  have e3 : ∀ k : Fin 128, idx_main_v89 (idx_main_v90 (lidx_main_v92 i k)) = ix1 (i 0) := fun k => funext fun a => Fin.ext (by
    match a with
    | ⟨0, _⟩ => rfl)
  have e4 : idx_main_v93 (idx_main_v94 i) = ix1 (i 1) := funext fun a => Fin.ext (by
    match a with
    | ⟨0, _⟩ => rfl)
  rw [val_main_v95_apply, val_main_v92_apply, val_main_v94_apply, val_main_v93_apply, Ideal.addf_def]
  unfold Cert.Spec.head
  refine congrArg₂ (· + ·) (Finset.sum_congr rfl fun k _ => ?_) ((congrArg x9 e4).trans (hbc (i 1)).symm)
  -- the pooled entry, and the divisor: the count of the graph clamped below at one
  have hp : val_main_v82 (F := Ideal) x0 x1 x2 x3 x4 x5 x6 x7 (lidx_main_v92 i k)
      = Cert.Spec.pooled (val_main_v65 (F := Ideal) x0 x1 x2 x4 x5) s gid x6 b2r (i 0) k :=
    (congrArg (val_main_v82 (F := Ideal) x0 x1 x2 x3 x4 x5 x6 x7) (e1 k)).trans
      (pool_ix2_of x0 x1 x2 x3 x4 x5 x6 x7 s gid b2r hs hg hb (i 0) k)
  have hd : val_main_v90 (F := Ideal) x3 (lidx_main_v92 i k) = max (cnt (ix2 (i 0) 0)) Cert.Spec.oneW := by
    rw [val_main_v90_apply, val_main_v89_apply, val_main_v88_apply, val_main_v87_apply, val_main_cst_25_apply, e3 k,
      Ideal.maximumf_def, Ideal.ofBits_def]
    exact congrArg (fun t => max t Cert.Spec.oneW) (hc (i 0)).symm
  rw [val_main_v91_apply, Ideal.hostDivf_def]
  exact congrArg₂ (· * ·) (congrArg₂ Ideal.div hp hd) (congrArg x8 (e2 k))

/-- THE RESULT with the columns and rows built from the one-axis stages: the in-degree factors, the graph numbers and
    the node counts as columns, the two biases as rows. -/
theorem ref_result :
    val_main_v95 (F := Ideal) x0 x1 x2 x3 x4 x5 x6 x7 x8 x9
      = Cert.Spec.head (val_main_v65 (F := Ideal) x0 x1 x2 x4 x5) (fun i => val_main_v71 (F := Ideal) x2 (ix1 (i 0)))
          (fun i => x3 (ix1 (i 0))) (fun i => val_main_v86 (F := Ideal) x3 (ix1 (i 0))) x6 (fun i => x7 (ix1 (i 1))) x8
          (fun i => x9 (ix1 (i 1))) :=
  ref_result_of x0 x1 x2 x3 x4 x5 x6 x7 x8 x9 _ _ _ _ _ (fun _ => rfl) (fun _ => rfl) (fun _ => rfl) (fun _ => rfl)
    (fun _ => rfl)

/-- The result as one function of the ten arguments: `Spec.head` of the second aggregated rows, the in-degree factors,
    graph numbers and node counts as columns, the second weights, the second bias as a row, the classifier's weights
    and its bias as a row. -/
abbrev refHead : Cert.Spec.SGxC.Idx → EReal :=
  Cert.Spec.head (val_main_v65 (F := Ideal) x0 x1 x2 x4 x5) (fun i => val_main_v71 (F := Ideal) x2 (ix1 (i 0)))
    (fun i => x3 (ix1 (i 0))) (fun i => val_main_v86 (F := Ideal) x3 (ix1 (i 0))) x6 (fun i => x7 (ix1 (i 1))) x8
    (fun i => x9 (ix1 (i 1)))

/-- The run's result term is that function of the arguments' launch contents. -/
theorem res_out0_eq (m : (ℓ : Loc nD τ sig) → Buf (Elt Ideal) ℓ) (c : Dev nD) :
    Cert.ReferenceIdeal.ValueP.res_out0 (F := Ideal) m c
      = refHead (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v95_eq (F := Ideal) m c).trans (ref_result _ _ _ _ _ _ _ _ _ _)

end Cert.ReferenceIdeal.RefValue

end
-- ==== Proof.LibFlatGather.lean ====
/-
  A FLAT TABLE READ BY INDEX.

  `x[idx]` of a flat table `x : [N]` at a vector of `E` integer indices lowers to a gather whose start indices are laid
  out as `[E, 1]` (one index vector of length one per result element), the table's one axis collapsed (slice size 1) and
  named by the start index, and no offset axis: the result is `[E]`. This file reads that gather at one element,
  generically in the two sizes and in the element type: result element `e` is the table at the start index
  `idx[e, 0]`, read as a signed integer and clamped into `[0, N − 1]` (a gather clamps every start index so that its
  slice fits; a negative index reads entry `0`, one past the end reads the last entry).
-/
import Idealize.ShloMosaic.PureOps.Ideal
import Idealize.ShloMosaic.Lib.ValueIdx

noncomputable section

namespace Cert.LibFlatGather

open Idealize.ShloMosaic Idealize.ShloMosaic.ValueIdx

/-- The dimension numbers of `x[idx]` for a flat table `x : [N]` and start indices `idx : [E, 1]`, result `[E]`: no
    offset axis, the table's axis collapsed and the one axis the start index names, the index vector on axis 1 of the
    start indices. The conditions `wf` are decided on a program's literal sizes. -/
abbrev flatGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the table at the start index `idx[e, 0]`, read signed and clamped into
    `[0, N − 1]`. On the table's one axis the operand index is the clamped start: there is no batching axis, and the axis
    is collapsed, so it carries no offset. -/
theorem flatGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (flatGatherDims N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (flatGatherDims N E wf).start y idx 0 + (flatGatherDims N E wf).batchCoord y 0
    + (flatGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  -- the start-indices index of result element `e` and index-vector position 0 is `[e, 0]`
  have hsi : (flatGatherDims N E wf).siIdx y ⟨List.idxOf (0 : Fin 1) (flatGatherDims N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- The same for any record equal to `flatGatherDims N E wf`: a program prints its dimension numbers as a record of its
    own with literal sizes, which is this one by `rfl`. -/
theorem flatGather_apply_of {α : Type} {N E w : Nat} (hN : 0 < N)
    {wf : GatherDims.WF ⟨1, ![N]⟩ ⟨2, ![E, 1]⟩ ⟨1, ![E]⟩ [] [0] [] [0] [] 1 ![1]}
    (d : GatherDims ⟨1, ![N]⟩ ⟨2, ![E, 1]⟩ ⟨1, ![E]⟩) (hd : d = flatGatherDims N E wf)
    (x : (⟨1, ![N]⟩ : Shape).Idx → α) (idx : IVec ⟨2, ![E, 1]⟩ w) (y : (⟨1, ![E]⟩ : Shape).Idx) :
    Host.gather d x idx y
      = x (ix1 ⟨min (idx (ix2 (y 0) ⟨0, Nat.one_pos⟩)).toInt.toNat (N - 1), by omega⟩) := by
  subst hd; exact flatGather_apply hN wf x idx y

end Cert.LibFlatGather

end
-- ==== Proof.LibGatherScaled.lean ====
/-
  ROWS OF A ROW-SCALED TABLE, READ BY INDEX.

  Let `h : [N, D]` be a table and `v : [N]` one factor per row. Scaling row `n` of `h` by `v n` and then reading rows at
  start indices gives the same as reading the rows first and scaling row `e` of the result by the factor read at the
  same start index: element `(e, k)` of either side is the product of `h[i, k]` and `v[i]`, where `i` is the start index
  of `e` read as a signed integer and clamped into `[0, N − 1]`. The two sides form the same product of the same two
  entries, so the law holds for any float values and needs no finiteness.
-/
import proofs.«428050_j45861660787100_2_alg».proof.Proof.LibRowOps
import proofs.«428050_j45861660787100_2_alg».proof.Proof.LibFlatGather
import Idealize.ShloMosaic.Lib.Pipeline.Value

noncomputable section

namespace Cert.GatherLaw

open Idealize.ShloMosaic Idealize.ShloMosaic.ValueIdx

/-- A vector laid out as a column, and the column repeated across `D` columns, read at `(r, k)`: the vector at `r`. -/
theorem bcast_col_rows_apply {α : Type} {N D : Nat}
    (b1 : (⟨1, ![N]⟩ : Shape).BroadcastsInDim ⟨2, ![N, 1]⟩ ![0])
    (b2 : (⟨2, ![N, 1]⟩ : Shape).BroadcastsInDim ⟨2, ![N, D]⟩ ![0, 1])
    (v : (⟨1, ![N]⟩ : Shape).Idx → α) (j : (⟨2, ![N, D]⟩ : Shape).Idx) :
    broadcastInDim ⟨2, ![N, D]⟩ ![0, 1] b2 (broadcastInDim ⟨2, ![N, 1]⟩ ![0] b1 v) j = v (ix1 (j 0)) := by
  have hlt : (j 0).val < N := idx2_lt0 j
  have e2 := broadcastInDim_apply ![0, 1] b2 (broadcastInDim ⟨2, ![N, 1]⟩ ![0] b1 v) j
    (ix2 (j 0) (⟨0, Nat.one_pos⟩ : Fin 1)) (fun a => by
      match a with
      | ⟨0, _⟩ =>
        show (j 0).val = if N = 1 then 0 else (j 0).val
        split_ifs with h1
        · omega
        · rfl
      | ⟨1, _⟩ =>
        show (0 : ℕ) = if (1 : ℕ) = 1 then 0 else _
        simp)
  have e1 := broadcastInDim_apply ![0] b1 v (ix2 (j 0) (⟨0, Nat.one_pos⟩ : Fin 1)) (ix1 (j 0)) (fun a => by
      match a with
      | ⟨0, _⟩ =>
        show (j 0).val = if N = 1 then 0 else (j 0).val
        split_ifs with h1
        · omega
        · rfl)
  exact e2.trans e1

/-- THE LAW, for any two gather records that are the row gather and the flat gather of the same sizes (a program prints
    its own records with literal sizes; each is one of these by `rfl`). -/
theorem gather_rows_scaled {F : FTy → Type} [FloatOps F] {φ : FTy} {N E D w : Nat} (hN : 0 < N)
    {wfR : GatherDims.WF ⟨2, ![N, D]⟩ ⟨2, ![E, 1]⟩ ⟨2, ![E, D]⟩ [1] [0] [] [0] [] 1 ![1, D]}
    {wfF : GatherDims.WF ⟨1, ![N]⟩ ⟨2, ![E, 1]⟩ ⟨1, ![E]⟩ [] [0] [] [0] [] 1 ![1]}
    (dR : GatherDims ⟨2, ![N, D]⟩ ⟨2, ![E, 1]⟩ ⟨2, ![E, D]⟩) (hdR : dR = LibRowOps.rowGatherDims N E D wfR)
    (dF : GatherDims ⟨1, ![N]⟩ ⟨2, ![E, 1]⟩ ⟨1, ![E]⟩) (hdF : dF = LibFlatGather.flatGatherDims N E wfF)
    (bN1 : (⟨1, ![N]⟩ : Shape).BroadcastsInDim ⟨2, ![N, 1]⟩ ![0])
    (bND : (⟨2, ![N, 1]⟩ : Shape).BroadcastsInDim ⟨2, ![N, D]⟩ ![0, 1])
    (bE1 : (⟨1, ![E]⟩ : Shape).BroadcastsInDim ⟨2, ![E, 1]⟩ ![0])
    (bED : (⟨2, ![E, 1]⟩ : Shape).BroadcastsInDim ⟨2, ![E, D]⟩ ![0, 1])
    (h : FVec F ⟨2, ![N, D]⟩ φ) (v : FVec F ⟨1, ![N]⟩ φ) (idx : IVec ⟨2, ![E, 1]⟩ w) :
    mulf (Host.gather dR h idx)
        (broadcastInDim ⟨2, ![E, D]⟩ ![0, 1] bED (broadcastInDim ⟨2, ![E, 1]⟩ ![0] bE1 (Host.gather dF v idx)))
      = Host.gather dR (mulf h (broadcastInDim ⟨2, ![N, D]⟩ ![0, 1] bND (broadcastInDim ⟨2, ![N, 1]⟩ ![0] bN1 v))) idx := by
  funext y
  -- the right side at `y`: the scaled table at the clamped row and `y`'s column
  rw [LibRowOps.rowGather_apply_of hN dR hdR]
  -- both products, written out
  show FloatOps.mulf (Host.gather dR h idx y)
      (broadcastInDim ⟨2, ![E, D]⟩ ![0, 1] bED (broadcastInDim ⟨2, ![E, 1]⟩ ![0] bE1 (Host.gather dF v idx)) y)
    = FloatOps.mulf (h (ix2 ⟨min (idx (ix2 (y 0) ⟨0, Nat.one_pos⟩)).toInt.toNat (N - 1), by omega⟩ (y 1)))
      (broadcastInDim ⟨2, ![N, D]⟩ ![0, 1] bND (broadcastInDim ⟨2, ![N, 1]⟩ ![0] bN1 v)
        (ix2 ⟨min (idx (ix2 (y 0) ⟨0, Nat.one_pos⟩)).toInt.toNat (N - 1), by omega⟩ (y 1)))
  -- the left factor is the table's entry, the right factor the row's factor, on both sides
  rw [LibRowOps.rowGather_apply_of hN dR hdR, bcast_col_rows_apply, bcast_col_rows_apply,
    LibFlatGather.flatGather_apply_of hN dF hdF]
  -- the two row indices are the same clamped start index, once the index builders are read at their coordinates
  rfl

end Cert.GatherLaw

end
-- ==== Proof.StageEq.lean ====
/-
  THE TWO PROGRAMS' WHOLE-ARRAY STAGES AROUND THE DENSE STEPS ARE THE SAME TERMS.

  Outside its two kernel regions the kernel program computes, with whole-array operations, the degree factors, the
  wrapped source indices, the graphs' node counts and the two aggregates; the reference computes the same quantities
  stage by stage. Each pair is one operation term written twice, over records that carry the same dimension numbers,
  so the equations hold by unfolding both sides, for any inputs and with no arithmetic. One pair differs in the order
  of two operations: the kernel program reads the feature rows at the sources and then scales row `e` by the degree
  factor read at the same source, the reference scales row `n` of the table by the factor of `n` and then reads the
  rows; reading rows commutes with scaling them (`Cert.GatherLaw.gather_rows_scaled`: the same product of the same
  two entries on both sides), which gives the first aggregate.
-/
import proofs.«428050_j45861660787100_2_alg».proof.Proof.KIHost
import proofs.«428050_j45861660787100_2_alg».proof.Proof.LibGatherScaled
import proofs.«428050_j45861660787100_2_alg».proof.Proof.RefRead

noncomputable section

namespace Cert.Bridge

open Idealize.ShloMosaic
open Cert.KernelIdeal.Hand (degK invDeg normIdx agg1K agg2K cntK)
open Cert.ReferenceIdeal.ReadP

/-! ## The degree factors, the wrapped indices, the counts: the same terms -/

/-- The degree factor of a list of edge ends is the reference's stage, at each of the four places it computes one
    (of the sources twice, of the destinations twice). -/
theorem invDeg_eq_v12 (idx : Cert.KernelIdeal.S1600000.Idx → BitVec 32) :
    invDeg (F := Ideal) idx = val_main_v12 (F := Ideal) idx := rfl
theorem invDeg_eq_v31 (idx : Cert.KernelIdeal.S1600000.Idx → BitVec 32) :
    invDeg (F := Ideal) idx = val_main_v31 (F := Ideal) idx := rfl
theorem invDeg_eq_v52 (idx : Cert.KernelIdeal.S1600000.Idx → BitVec 32) :
    invDeg (F := Ideal) idx = val_main_v52 (F := Ideal) idx := rfl
theorem invDeg_eq_v71 (idx : Cert.KernelIdeal.S1600000.Idx → BitVec 32) :
    invDeg (F := Ideal) idx = val_main_v71 (F := Ideal) idx := rfl

/-- The sources as a column of start indices, negative entries wrapped: the reference's stage, at both gathers. -/
theorem normIdx_eq_v21 (src : Cert.KernelIdeal.S1600000.Idx → BitVec 32) :
    normIdx (F := Ideal) src = val_main_v21 (F := Ideal) src := rfl
theorem normIdx_eq_v61 (src : Cert.KernelIdeal.S1600000.Idx → BitVec 32) :
    normIdx (F := Ideal) src = val_main_v61 (F := Ideal) src := rfl

/-- The graphs' node counts: the reference's stage. -/
theorem cntK_eq_v86 (gid : Cert.KernelIdeal.S100000.Idx → BitVec 32) :
    cntK (F := Ideal) gid = val_main_v86 (F := Ideal) gid := rfl

/-! ## The two aggregates -/

/-- THE FIRST AGGREGATE: rows read at the sources and then scaled by the sources' factors, added up by destination, is
    the reference's: rows of the scaled table read at the sources, added up by destination. -/
theorem agg1K_eq_v25 (h : Cert.KernelIdeal.S100000x128.Idx → EReal) (src dst : Cert.KernelIdeal.S1600000.Idx → BitVec 32) :
    agg1K (F := Ideal) h src dst = val_main_v25 (F := Ideal) h src dst := by
  have law := Cert.GatherLaw.gather_rows_scaled (F := Ideal) (φ := .f32) (N := 100000) (E := 1600000) (D := 128) (w := 32) (by decide)
    Cert.KernelIdeal.gather_S100000x128_S1600000x1_S1600000x128_1_0_n_n_0_1_1128 rfl
    Cert.KernelIdeal.gather_S100000_S1600000x1_S1600000_n_0_n_n_0_1_1 rfl
    Cert.ReferenceIdeal.Gen.bcast_S100000_S100000x1_0 Cert.ReferenceIdeal.Gen.bcast_S100000x1_S100000x128_0_1
    Cert.KernelIdeal.Gen.bcast_S1600000_S1600000x1_0 Cert.KernelIdeal.Gen.bcast_S1600000x1_S1600000x128_0_1
    h (invDeg (F := Ideal) src) (normIdx (F := Ideal) src)
  unfold agg1K
  rw [law]
  rfl

/-- THE SECOND AGGREGATE: the reference's second sum by destination is the kernel program's aggregate of the
    reference's own first-layer rows. -/
theorem v65_eq_agg2K (x0 : Cert.KernelIdeal.S100000x128.Idx → EReal) (x1 x2 : Cert.KernelIdeal.S1600000.Idx → BitVec 32)
    (x4 : Cert.KernelIdeal.S128x128.Idx → EReal) (x5 : Cert.KernelIdeal.S128.Idx → EReal) :
    val_main_v65 (F := Ideal) x0 x1 x2 x4 x5 = agg2K (F := Ideal) (val_main_v55 (F := Ideal) x0 x1 x2 x4 x5) x1 x2 := rfl

end Cert.Bridge

end
-- ==== Proof.Bridge.lean ====
/-
  THE TWO PROGRAMS' RESULTS ARE ONE FUNCTION OF THE ARGUMENTS.

  The reference's result is the network's head of its own second aggregate, with the in-degree factors, the graph
  numbers and the node counts as columns and the two biases as rows; its statement holds for ANY columns and rows
  with the right entries at (n, 0), (g, 0) and (0, j). The kernel program's result is the same head of its second
  aggregate, with the columns and rows its host stretches form by reshaping. A vector reshaped to a column or a row
  has the vector's entries there; the kernel program's degree factors and counts are formed by the reference's own
  operations; its two-column table of factors has the in-degree factors in column 0 and the out-degree factors in
  column 1. So the reference's statement, taken at the kernel program's columns and rows, gives the kernel program's
  head up to the aggregate: the reference's second aggregate is the kernel program's second aggregate of the first
  layer's stored rows, which are the same function (the first layer's dense step, scaled) of the first aggregate, and
  the two first aggregates agree.
-/
import proofs.«428050_j45861660787100_2_alg».proof.Proof.KernelValue
import proofs.«428050_j45861660787100_2_alg».proof.Proof.KIHostIdx
import proofs.«428050_j45861660787100_2_alg».proof.Proof.RefVal
import proofs.«428050_j45861660787100_2_alg».proof.Proof.StageEq

noncomputable section

namespace Cert.Bridge

open Idealize.ShloMosaic Idealize.ShloMosaic.TcCoe Idealize.ShloMosaic.ValueIdx Idealize.SL.Sem
open Cert.KernelIdeal.Hand (invDeg agg1K agg2K cntK dnK)
open Cert.ReferenceIdeal.ReadP (val_main_v95 val_main_v65 val_main_v55 val_main_v25 val_main_v71 val_main_v31 val_main_v52 val_main_v86)

section
variable (a0 : Cert.KernelIdeal.S100000x128.Idx → EReal) (a1 a2 : Cert.KernelIdeal.S1600000.Idx → BitVec 32)
  (a3 : Cert.KernelIdeal.S100000.Idx → BitVec 32) (a4 : Cert.KernelIdeal.S128x128.Idx → EReal)
  (a5 : Cert.KernelIdeal.S128.Idx → EReal) (a6 : Cert.KernelIdeal.S128x128.Idx → EReal)
  (a7 : Cert.KernelIdeal.S128.Idx → EReal) (a8 : Cert.KernelIdeal.S128x10.Idx → EReal)
  (a9 : Cert.KernelIdeal.S10.Idx → EReal)

/-- On the argument arrays: the reference's last stage is the head the kernel program's result is stated as. -/
theorem head_eq :
    val_main_v95 (F := Ideal) a0 a1 a2 a3 a4 a5 a6 a7 a8 a9
      = Cert.Spec.head
          (agg2K (F := Ideal)
            (Cert.Spec.h1s (agg1K (F := Ideal) a0 a1 a2) (dnK (F := Ideal) a1 a2) a4
              (shapeCast Cert.KernelIdeal.S1x128 a5 Cert.KernelIdeal.Gen.shapeCasts_S128_S1x128)) a1 a2)
          (shapeCast Cert.KernelIdeal.S100000x1 (invDeg (F := Ideal) a2) Cert.KernelIdeal.Gen.shapeCasts_S100000_S100000x1)
          (shapeCast Cert.KernelIdeal.S100000x1 a3 Cert.KernelIdeal.Gen.shapeCasts_S100000_S100000x1)
          (shapeCast Cert.KernelIdeal.S64x1 (cntK (F := Ideal) a3) Cert.KernelIdeal.Gen.shapeCasts_S64_S64x1)
          a6 (shapeCast Cert.KernelIdeal.S1x128 a7 Cert.KernelIdeal.Gen.shapeCasts_S128_S1x128)
          a8 (shapeCast Cert.KernelIdeal.S1x10 a9 Cert.KernelIdeal.Gen.shapeCasts_S10_S1x10) := by
  rw [Cert.ReferenceIdeal.RefValue.ref_result_of (x0 := a0) (x1 := a1) (x2 := a2) (x3 := a3) (x4 := a4) (x5 := a5)
        (x6 := a6) (x7 := a7) (x8 := a8) (x9 := a9)
        (shapeCast Cert.KernelIdeal.S100000x1 (invDeg (F := Ideal) a2) Cert.KernelIdeal.Gen.shapeCasts_S100000_S100000x1)
        (shapeCast Cert.KernelIdeal.S100000x1 a3 Cert.KernelIdeal.Gen.shapeCasts_S100000_S100000x1)
        (shapeCast Cert.KernelIdeal.S64x1 (cntK (F := Ideal) a3) Cert.KernelIdeal.Gen.shapeCasts_S64_S64x1)
        (shapeCast Cert.KernelIdeal.S1x128 a7 Cert.KernelIdeal.Gen.shapeCasts_S128_S1x128)
        (shapeCast Cert.KernelIdeal.S1x10 a9 Cert.KernelIdeal.Gen.shapeCasts_S10_S1x10)
        (fun n => (Cert.KernelIdeal.Hand.col_nodes_apply (invDeg (F := Ideal) a2) n 0).trans
          (congrFun (invDeg_eq_v71 a2) (ix1 n)))
        (fun n => Cert.KernelIdeal.Hand.col_nodes_apply a3 n ⟨0, Nat.one_pos⟩)
        (fun g => (Cert.KernelIdeal.Hand.col_graphs_apply (cntK (F := Ideal) a3) g 0).trans
          (congrFun (cntK_eq_v86 a3) (ix1 g)))
        (fun j => Cert.KernelIdeal.Hand.row_feats_apply a7 0 j)
        (fun j => Cert.KernelIdeal.Hand.row_classes_apply a9 0 j),
    v65_eq_agg2K a0 a1 a2 a4 a5,
    Cert.ReferenceIdeal.RefValue.ref_layer1_of (x0 := a0) (x1 := a1) (x2 := a2) (x4 := a4) (x5 := a5)
        (dnK (F := Ideal) a1 a2) (shapeCast Cert.KernelIdeal.S1x128 a5 Cert.KernelIdeal.Gen.shapeCasts_S128_S1x128)
        (fun n => (Cert.KernelIdeal.Hand.dnK_col0 a1 a2 n).trans (congrFun (invDeg_eq_v31 a2) (ix1 n)))
        (fun n => (Cert.KernelIdeal.Hand.dnK_col1 a1 a2 n).trans (congrFun (invDeg_eq_v52 a1) (ix1 n)))
        (fun j => Cert.KernelIdeal.Hand.row_feats_apply a5 0 j),
    ← agg1K_eq_v25 a0 a1 a2]

end

/-- THE BRIDGE: from memories that agree on the ten arguments, the reference's result is the kernel program's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v95 (F := Ideal) m' c = Cert.KernelIdeal.Hand.Y1 (F := Ideal) m c := by
  obtain ⟨h0, h1, h2, h3, h4, h5, h6, h7, h8, h9⟩ := hagree
  rw [Cert.ReferenceIdeal.ReadP.val_main_v95_eq (F := Ideal) m' c, h0, h1, h2, h3, h4, h5, h6, h7, h8, h9,
    Cert.KernelIdeal.Hand.Y1_eq m c, Cert.KernelIdeal.Hand.Y0_eq m c]
  exact head_eq _ _ _ _ _ _ _ _ _ _

end Cert.Bridge

end
-- ==== Proof.lean ====
/-
  The certificate's claim: a two-layer graph convolution network with average pooling and a linear head, written with
  two kernel regions (the first layer's dense step; the second layer's dense step with the per-graph sums and the
  classifier), against the plain array program.

  Frames. Both printings of the kernel program (on words, and on the extended reals) run as eight items: five
  stretches of host operations, region 0, one more stretch, region 1; each region's body obligation is proved at every
  grid point (region 1 carries its table of per-graph sums from point to point), the launch composes the items, and
  every argument array ends as launched. The reference is one straight line of host operations.

  Equal results on the extended reals. Region 0 leaves relu((agg1 * inv_in) W1 + b1) * inv_out, where agg1 adds, per
  destination node, the source rows scaled by the source's out-degree factor (the kernel program scales the gathered
  rows, the reference gathers the scaled rows: the same rows). Region 1 leaves, per graph, the sum of
  relu((agg2 * inv_in) W2 + b2) over the graph's nodes (ten blocks of a one-hot product, against one segment sum),
  divided by the larger of the node count and one, times Wc, plus bc. Every product is formed in the same order on both
  sides and the only re-grouping is of a finite sum, so no finiteness of the inputs is used.
-/
import proofs.«428050_j45861660787100_2_alg».proof.Defs
import proofs.«428050_j45861660787100_2_alg».proof.Proof.Gen.Kernel
import proofs.«428050_j45861660787100_2_alg».proof.Proof.Gen.KernelIdeal
import proofs.«428050_j45861660787100_2_alg».proof.Proof.Gen.ReferenceIdeal
import proofs.«428050_j45861660787100_2_alg».proof.Proof.Gen.Pre_finite_inputs
import proofs.«428050_j45861660787100_2_alg».proof.Proof.KRun
import proofs.«428050_j45861660787100_2_alg».proof.Proof.KIRun
import proofs.«428050_j45861660787100_2_alg».proof.Proof.RefSide
import proofs.«428050_j45861660787100_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals the kernel program's result buffer ends at region 1's result array and the reference's at
    its composed term; from arguments that agree the two are one array. -/
theorem algebraic : Cert.algebraic_KernelIdeal_ReferenceIdeal := by
  intro m ρ m' ρ' _ hagree
  refine ⟨fun c => Cert.KernelIdeal.Hand.Y1 (F := Ideal) m c, Cert.KernelIdeal.Hand.run_value m ρ, ?_⟩
  exact (θ_run Cert.ReferenceIdeal.defs _ _).mono
    (fun _ h c => ⟨(h c).1.trans (Cert.Bridge.result_eq m m' c (hagree c)), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
